-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S1x1 : Shape := ⟨2, ![1, 1]⟩
abbrev S_ : Shape := ⟨0, ![]⟩
abbrev S128x128 : Shape := ⟨2, ![128, 128]⟩
abbrev S128 : Shape := ⟨1, ![128]⟩
abbrev S1x128 : Shape := ⟨2, ![1, 128]⟩
abbrev S1 : Shape := ⟨1, ![1]⟩
abbrev S8192 : Shape := ⟨1, ![8192]⟩
abbrev S128x8192 : Shape := ⟨2, ![128, 8192]⟩
abbrev S128x1 : Shape := ⟨2, ![128, 1]⟩
abbrev S1x8192 : Shape := ⟨2, ![1, 8192]⟩
abbrev S1x128x8192 : Shape := ⟨3, ![1, 128, 8192]⟩
abbrev S1x1x1 : Shape := ⟨3, ![1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S1x1, .f32⟩
  | .hbm, ⟨2, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S8192x128, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v83 : BitVec 1 := Scalar.cmpi .eq arg0 c63_i32
  let v84 : BitVec 32 := Scalar.extui v83
  let c0_i32_30 : BitVec 32 := 0#32
  let v85 : BitVec 1 := Scalar.cmpi .ne v84 c0_i32_30
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x128_S128x128_0_0 : ∀ a, (![0, 0] : Fin 2 → Nat) a + S128x128.size a ≤ S128x128.size a
  h_S128x128 : 0 < S128x128.numel
  inb_S8192x128_S8192x128_0_0 : ∀ a, (![0, 0] : Fin 2 → Nat) a + S8192x128.size a ≤ S8192x128.size a
  h_S8192x128 : 0 < S8192x128.numel
  reduces_S128x128_S128 : S128x128.Reduces [1] S128
  shapeCasts_S128_S1x128 : S128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  reduces_S8192x128_S8192 : S8192x128.Reduces [1] S8192
  transposes_S8192x128_p1_0_S128x8192 : S8192x128.Transposes [1, 0] S128x8192
  shapeCasts_S128_S128x1 : S128.ShapeCasts S128x1
  shapeCasts_S8192_S1x8192 : S8192.ShapeCasts S1x8192
  broadcasts_S128x1_S128x8192 : S128x1.Broadcasts S128x8192
  broadcasts_S1x8192_S128x8192 : S1x8192.Broadcasts S128x8192
  iota_S128x1_d0_w32 : S128x1.Iotas .tc 32 [0]
  iota_S1x8192_d1_w32 : S1x8192.Iotas .tc 32 [1]
  shapeCasts_S128x8192_S1x128x8192 : S128x8192.ShapeCasts S1x128x8192
  reduces_S1x128x8192_S1 : S1x128x8192.Reduces [1, 2] S1
  shapeCasts_S1_S1x1x1 : S1.ShapeCasts S1x1x1
  inpos_S1x1x1_p0_0_0 : ∀ a, (![0, 0, 0] : Fin 3 → Nat) a < S1x1x1.size a
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 90
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S_, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x128, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S128x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .i1⟩
  | .hbm, ⟨45, _⟩ => ⟨S8192x8192, .i1⟩
  | .hbm, ⟨46, _⟩ => ⟨S8192x8192, .i32⟩
  | .hbm, ⟨47, _⟩ => ⟨S_, .i32⟩
  | .hbm, ⟨48, _⟩ => ⟨S8192x8192, .i32⟩
  | .hbm, ⟨49, _⟩ => ⟨S8192x8192, .i32⟩
  | .hbm, ⟨50, _⟩ => ⟨S8192x8192, .i32⟩
  | .hbm, ⟨51, _⟩ => ⟨S8192x8192, .i1⟩
  | .hbm, ⟨52, _⟩ => ⟨S_, .i1⟩
  | .hbm, ⟨53, _⟩ => ⟨S8192x8192, .i1⟩
  | .hbm, ⟨54, _⟩ => ⟨S8192x8192, .i1⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S_, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_cst_7 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c : Ref sig .tc := ⟨.hbm, 44, rfl⟩
abbrev main_v28 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_0 : Ref sig .tc := ⟨.hbm, 52, rfl⟩
abbrev main_call1_v5 : Ref sig .tc := ⟨.hbm, 53, rfl⟩
abbrev main_v29 : Ref sig .tc := ⟨.hbm, 54, rfl⟩
abbrev main_cst_9 : Ref sig .tc := ⟨.hbm, 55, rfl⟩
abbrev main_v30 : Ref sig .tc := ⟨.hbm, 56, rfl⟩
abbrev main_v31 : Ref sig .tc := ⟨.hbm, 57, rfl⟩
abbrev main_cst_10 : Ref sig .tc := ⟨.hbm, 58, rfl⟩
abbrev main_call2_v0 : Ref sig .tc := ⟨.hbm, 59, rfl⟩
abbrev main_call2_v1 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_11 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_12 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_13 : Ref sig .tc := ⟨.hbm, 73, rfl⟩
abbrev main_cst_14 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v42 : Ref sig .tc := ⟨.hbm, 80, rfl⟩
abbrev main_cst_15 : Ref sig .tc := ⟨.hbm, 81, rfl⟩
abbrev main_call4_v0 : Ref sig .tc := ⟨.hbm, 82, rfl⟩
abbrev main_call4_v1 : Ref sig .tc := ⟨.hbm, 83, rfl⟩
abbrev main_v43 : Ref sig .tc := ⟨.hbm, 84, rfl⟩
abbrev main_cst_16 : Ref sig .tc := ⟨.hbm, 85, rfl⟩
abbrev main_v44 : Ref sig .tc := ⟨.hbm, 86, rfl⟩
abbrev main_cst_17 : Ref sig .tc := ⟨.hbm, 87, rfl⟩
abbrev main_v45 : Ref sig .tc := ⟨.hbm, 88, rfl⟩
abbrev main_v46 : Ref sig .tc := ⟨.hbm, 89, rfl⟩

abbrev nD : Nat := 1
abbrev τ : Topo := Topo.v7x

variable {F : FTy → Type} [FloatOps F]

class Facts₀ : Prop where
  bcast_S_S8192x128 : S_.BroadcastsInDim S8192x128 (![] : Fin 0 → Fin S8192x128.rank)
  reducesTo_S8192x128_S8192_d1 : S8192x128.ReducesTo [1] S8192
  h_S_ : 0 < S_.numel
  bcast_S_S8192 : S_.BroadcastsInDim S8192 (![] : Fin 0 → Fin S8192.rank)
  reducesTo_S8192_S_d0 : S8192.ReducesTo [0] S_
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Base.lean ====
/-
  What the three runs of the kernel body and the body obligation share.

  The grid has 64 points. The body resets its two accumulators at the first point, adds to them at every point, and
  stores the result into the output's block at the last point only; the output's window is idle at every other
  point. Here: the two branch conditions decided over the grid, where the output's window is idle and where it is
  written back, names for the staging and scratch memrefs the body is called with, and the region's class invariant
  opened into the two accumulators and the generator register.
-/
import proofs.«137138_j82729660056292_1_alg».proof.Proof.Gen.Kernel.Launch
import proofs.«137138_j82729660056292_1_alg».proof.Proof.Gen.Kernel.Skeleton
import proofs.«137138_j82729660056292_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions over the grid -/

/-- The body's first branch (the accumulators' reset) is taken: the grid coordinate is 0. -/
abbrev isFirst (i : grid0.Coords) : Prop :=
  (Scalar.cmpi .ne (Scalar.extui (Scalar.cmpi .eq (BitVec.ofNat 32 (i 0).val) 0#32)) 0#32) = 1#1
/-- It is taken at point 0 and nowhere else. -/
theorem isFirst_iff : ∀ t : Fin cfg0.N, isFirst (grid0.coords t) ↔ t.val = 0 :=
  (by decide +kernel : ∀ t : Fin grid0.N, isFirst (grid0.coords t) ↔ t.val = 0)

/-- The body's last branch (the result's store) is taken: the grid coordinate is 63. -/
abbrev isLast (i : grid0.Coords) : Prop := k0_cond2 i = 1#1
/-- It is taken at point 63 and nowhere else. -/
theorem isLast_iff : ∀ t : Fin cfg0.N, isLast (grid0.coords t) ↔ t.val = 63 :=
  (by decide +kernel : ∀ t : Fin grid0.N, isLast (grid0.coords t) ↔ t.val = 63)

/-! ## Where the windows are idle, and where the output is written back -/

/-- The two input windows are never idle. -/
theorem live0 : ∀ t : Fin cfg0.N, cfg0.idle 0 (grid0.coords t) = false := by decide +kernel
theorem live1 : ∀ t : Fin cfg0.N, cfg0.idle 1 (grid0.coords t) = false := by decide +kernel
/-- Away from the last point the output's window is idle and is not written back. -/
theorem idle2 : ∀ t : Fin cfg0.N, ¬isLast (grid0.coords t) → cfg0.idle 2 (grid0.coords t) = true := by decide +kernel
theorem noFlush2 : ∀ t : Fin cfg0.N, ¬isLast (grid0.coords t) → (cfg0.win 2).flush t = false := by decide +kernel
/-- At the last point it is live. -/
theorem live2 : ∀ t : Fin cfg0.N, isLast (grid0.coords t) → cfg0.idle 2 (grid0.coords t) = false := by decide +kernel

/-! ## The memrefs the body is called with -/

/-- Each window's current staging memref at point t, as the pipeline passes it, and its wholeness. -/
abbrev st0 (t : Fin cfg0.N) : Memref sig .tc .vmem S128x128 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S8192x128 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S1x1 .f32 := win0_2.stage (cfg0.slots t 2)
abbrev hst2 (t : Fin cfg0.N) : (st2 t).IsWhole := hstage0_2 ((cfg0.slots t 2).cast nbuf0_2)
/-- The two accumulators: whole scoped buffers of the kernel's own. -/
abbrev acc0M : Memref sig .tc .vmem S1x1 .f32 := Memref.whole cc0_scratch0
abbrev acc1M : Memref sig .tc .vmem S1x1 .f32 := Memref.whole cc0_scratch1
/-- Views through which the accumulators' and the output block's contents are stated. -/
abbrev acc0V : View sig .tc .vmem S1x1 .f32 := acc0M.view
abbrev acc1V : View sig .tc .vmem S1x1 .f32 := acc1M.view
abbrev outV : View sig .tc .vmem S1x1 .f32 := (Memref.whole cc0_stg2_0 : Memref sig .tc .vmem S1x1 .f32).view

/-! ## The class invariant, opened -/

/-- The region's class invariant is the two accumulators owned at some contents and the generator register at some
    state. -/
theorem PhiA_eq (c : Dev nD) :
    (Pipeline.ΦA spec0 c : sProp 𝕄)
      = iprop(iprop((∃ d, owns (c : Thread nD τ) acc0M fullShare d) ∗ (∃ d, owns (c : Thread nD τ) acc1M fullShare d)) ∗ (∃ r, prngReg c r)) := by
  unfold Pipeline.ΦA; rw [scopedRest0_eq]; simp only [acc0M, acc1M, owns_whole]; try rfl

/-! ## The input windows' blocks -/

/-- Input window w's block at point t, read off the argument array. -/
def iblk (c : Dev nD) (w : Fin cfg0.W) (t : Fin cfg0.N) : ((cfg0.win w).xblock (cfg0.grid.coords t)).Idx → Elt F (cfg0.win w).elt :=
  ((cfg0.win w).blk t).view.read (Elt F) (m ((c.tc : Thread nD τ).loc (Pipeline.arrRef spec0 w)))

end Cert.Kernel.Hand

end
-- ==== Proof.K.RunFirst.lean ====
/-
  The kernel body at the first point: the accumulators are reset, then added to; no result yet.

  On whole memrefs — the two input blocks at their contents, the output's block at contents it never touches, the two
  accumulators at anything — the body runs to a state with the inputs and the output's block as they were and each
  accumulator overwritten, first by the reset and then by the sum; the stores' pieces are what the run finds.
-/
import proofs.«137138_j82729660056292_1_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- The body's run at the first point, with the pieces its stores leave in the two accumulators. -/
noncomputable def runFirst (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole)
    (hc0 : isFirst i) (hc1 : ¬isLast i)
    (x0 : Vec F S128x128 .f32) (x1 : Vec F S8192x128 .f32) :
    Σ' (LS0 : List (View.Piece (Elt F) S1x1 .f32)), { LS1 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__ptm_loss_kernel i arg1 harg1 arg2 harg2 arg3 harg3 arg4 harg4 arg5 harg5) K } := by
  refine ⟨?_, ?_, fun xi2 E K => ?run⟩
  case run =>
    simp only [cc0__ptm_loss_kernel_eq_skeleton]; unfold cc0__ptm_loss_kernel_skel
    simp only [k0_part1_eq_skeleton, k0_part2_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.K.RunMid.lean ====
/-
  The kernel body at a point that is neither the first nor the last: no reset, no result.

  On whole memrefs — the two input blocks at their contents, the output's block at contents it never touches, the two
  accumulators at what the point before left — the body runs to a state with the inputs and the output's block as
  they were and each accumulator overwritten by one store; the stores' pieces are what the run finds.
-/
import proofs.«137138_j82729660056292_1_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- The body's run at a middle point, with the pieces its stores leave in the two accumulators. -/
noncomputable def runMid (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole)
    (hc0 : ¬isFirst i) (hc1 : ¬isLast i)
    (x0 : Vec F S128x128 .f32) (x1 : Vec F S8192x128 .f32) (xs0 xs1 : Vec F S1x1 .f32) :
    Σ' (LS0 : List (View.Piece (Elt F) S1x1 .f32)), { LS1 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__ptm_loss_kernel i arg1 harg1 arg2 harg2 arg3 harg3 arg4 harg4 arg5 harg5) K } := by
  refine ⟨?_, ?_, fun xi2 E K => ?run⟩
  case run =>
    simp only [cc0__ptm_loss_kernel_eq_skeleton]; unfold cc0__ptm_loss_kernel_skel
    simp only [k0_part1_eq_skeleton, k0_part2_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.K.RunLast.lean ====
/-
  The kernel body at the last point: the accumulators are added to, then the result is stored into the output's
  block.

  On whole memrefs — the two input blocks at their contents, the output's block at anything, the two accumulators at
  what the point before left — the body runs to a state with the inputs as they were, each accumulator overwritten by
  one store and the output's block overwritten by the result; the stores' pieces are what the run finds.
-/
import proofs.«137138_j82729660056292_1_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- The body's run at the last point, with the pieces its stores leave in the output's block and the accumulators. -/
noncomputable def runLast (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole)
    (hc0 : ¬isFirst i) (hc1 : isLast i)
    (x0 : Vec F S128x128 .f32) (x1 : Vec F S8192x128 .f32) (xs0 xs1 : Vec F S1x1 .f32) :
    Σ' (L2 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__ptm_loss_kernel i arg1 harg1 arg2 harg2 arg3 harg3 arg4 harg4 arg5 harg5) K } := by
  refine ⟨?_, ?_, ?_, fun E K => ?run⟩
  case run =>
    simp only [cc0__ptm_loss_kernel_eq_skeleton]; unfold cc0__ptm_loss_kernel_skel
    simp only [k0_part1_eq_skeleton, k0_part2_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.Kernel.Hand

end
-- ==== Proof.K.Data.lean ====
/-
  The proof data of the one pipeline and the body obligation.

  After point t the first accumulator holds what the body's stores at t left in it, over what point t − 1 left; the
  same for the second; the output's block holds the result after the last point. The region's invariant carries the two
  accumulators at those contents from point to point (at anything before the first point). The two input windows hold
  their blocks of the argument array at every point; each is lent one half of that array.
-/
import proofs.«137138_j82729660056292_1_alg».proof.Proof.K.RunFirst
import proofs.«137138_j82729660056292_1_alg».proof.Proof.K.RunMid
import proofs.«137138_j82729660056292_1_alg».proof.Proof.K.RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point's memrefs -/

abbrev firstAt (c : Dev nD) (t : Fin cfg0.N) (hc0 : isFirst (grid0.coords t)) (hc1 : ¬isLast (grid0.coords t))
    (x0 : Vec F S128x128 .f32) (x1 : Vec F S8192x128 .f32) :=
  runFirst (F := F) c (grid0.coords t) (st0 t) (hst0 t) (st1 t) (hst1 t) (st2 t) (hst2 t) acc0M (Memref.isWhole_whole _) acc1M (Memref.isWhole_whole _) hc0 hc1 x0 x1
abbrev midAt (c : Dev nD) (t : Fin cfg0.N) (hc0 : ¬isFirst (grid0.coords t)) (hc1 : ¬isLast (grid0.coords t))
    (x0 : Vec F S128x128 .f32) (x1 : Vec F S8192x128 .f32) (xs0 xs1 : Vec F S1x1 .f32) :=
  runMid (F := F) c (grid0.coords t) (st0 t) (hst0 t) (st1 t) (hst1 t) (st2 t) (hst2 t) acc0M (Memref.isWhole_whole _) acc1M (Memref.isWhole_whole _) hc0 hc1 x0 x1 xs0 xs1
abbrev lastAt (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) :=
  runLast (F := F) c (grid0.coords t) (st0 t) (hst0 t) (st1 t) (hst1 t) (st2 t) (hst2 t) acc0M (Memref.isWhole_whole _) acc1M (Memref.isWhole_whole _) hc0 hc1 x0 x1 xs0 xs1

/-! ## What each case leaves: its stores' pieces read back, and that they cover the buffer -/

theorem firstCover0 (c : Dev nD) (t : Fin cfg0.N) (hc0 : isFirst (grid0.coords t)) (hc1 : ¬isLast (grid0.coords t))
    (x0 : Vec F S128x128 .f32) (x1 : Vec F S8192x128 .f32) (y : S1x1.Idx) : ∃ pc ∈ (firstAt c t hc0 hc1 x0 x1).1, y ∈ pc.1.set :=
  View.cover_of_tiledL (firstAt c t hc0 hc1 x0 x1).1 S1x1.size (by sl_kernel_rfl) y
theorem firstCover1 (c : Dev nD) (t : Fin cfg0.N) (hc0 : isFirst (grid0.coords t)) (hc1 : ¬isLast (grid0.coords t))
    (x0 : Vec F S128x128 .f32) (x1 : Vec F S8192x128 .f32) (y : S1x1.Idx) : ∃ pc ∈ (firstAt c t hc0 hc1 x0 x1).2.1, y ∈ pc.1.set :=
  View.cover_of_tiledL (firstAt c t hc0 hc1 x0 x1).2.1 S1x1.size (by sl_kernel_rfl) y
/-- What the first point leaves in the first accumulator. -/
def firstAcc0 (c : Dev nD) (t : Fin cfg0.N) (hc0 : isFirst (grid0.coords t)) (hc1 : ¬isLast (grid0.coords t))
    (x0 : Vec F S128x128 .f32) (x1 : Vec F S8192x128 .f32) : Vec F S1x1 .f32 :=
  acc0V.read (Elt F) (acc0V.writes (Elt F) acc0V.junk (firstAt c t hc0 hc1 x0 x1).1)
/-- What the first point leaves in the second accumulator. -/
def firstAcc1 (c : Dev nD) (t : Fin cfg0.N) (hc0 : isFirst (grid0.coords t)) (hc1 : ¬isLast (grid0.coords t))
    (x0 : Vec F S128x128 .f32) (x1 : Vec F S8192x128 .f32) : Vec F S1x1 .f32 :=
  acc1V.read (Elt F) (acc1V.writes (Elt F) acc1V.junk (firstAt c t hc0 hc1 x0 x1).2.1)

theorem midCover0 (c : Dev nD) (t : Fin cfg0.N) (hc0 : ¬isFirst (grid0.coords t)) (hc1 : ¬isLast (grid0.coords t))
    (x0 : Vec F S128x128 .f32) (x1 : Vec F S8192x128 .f32) (xs0 xs1 : Vec F S1x1 .f32) (y : S1x1.Idx) :
    ∃ pc ∈ (midAt c t hc0 hc1 x0 x1 xs0 xs1).1, y ∈ pc.1.set :=
  View.cover_of_tiledL (midAt c t hc0 hc1 x0 x1 xs0 xs1).1 S1x1.size (by sl_kernel_rfl) y
theorem midCover1 (c : Dev nD) (t : Fin cfg0.N) (hc0 : ¬isFirst (grid0.coords t)) (hc1 : ¬isLast (grid0.coords t))
    (x0 : Vec F S128x128 .f32) (x1 : Vec F S8192x128 .f32) (xs0 xs1 : Vec F S1x1 .f32) (y : S1x1.Idx) :
    ∃ pc ∈ (midAt c t hc0 hc1 x0 x1 xs0 xs1).2.1, y ∈ pc.1.set :=
  View.cover_of_tiledL (midAt c t hc0 hc1 x0 x1 xs0 xs1).2.1 S1x1.size (by sl_kernel_rfl) y
/-- What a middle point leaves in the first accumulator. -/
def midAcc0 (c : Dev nD) (t : Fin cfg0.N) (hc0 : ¬isFirst (grid0.coords t)) (hc1 : ¬isLast (grid0.coords t))
    (x0 : Vec F S128x128 .f32) (x1 : Vec F S8192x128 .f32) (xs0 xs1 : Vec F S1x1 .f32) : Vec F S1x1 .f32 :=
  acc0V.read (Elt F) (acc0V.writes (Elt F) acc0V.junk (midAt c t hc0 hc1 x0 x1 xs0 xs1).1)
/-- What a middle point leaves in the second accumulator. -/
def midAcc1 (c : Dev nD) (t : Fin cfg0.N) (hc0 : ¬isFirst (grid0.coords t)) (hc1 : ¬isLast (grid0.coords t))
    (x0 : Vec F S128x128 .f32) (x1 : Vec F S8192x128 .f32) (xs0 xs1 : Vec F S1x1 .f32) : Vec F S1x1 .f32 :=
  acc1V.read (Elt F) (acc1V.writes (Elt F) acc1V.junk (midAt c t hc0 hc1 x0 x1 xs0 xs1).2.1)

theorem lastCoverOut (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) (y : S1x1.Idx) :
    ∃ pc ∈ (lastAt c t hc0 hc1 x0 x1 xs0 xs1).1, y ∈ pc.1.set :=
  View.cover_of_tiledL (lastAt c t hc0 hc1 x0 x1 xs0 xs1).1 S1x1.size (by sl_kernel_rfl) y
theorem lastCover0 (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) (y : S1x1.Idx) :
    ∃ pc ∈ (lastAt c t hc0 hc1 x0 x1 xs0 xs1).2.1, y ∈ pc.1.set :=
  View.cover_of_tiledL (lastAt c t hc0 hc1 x0 x1 xs0 xs1).2.1 S1x1.size (by sl_kernel_rfl) y
theorem lastCover1 (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) (y : S1x1.Idx) :
    ∃ pc ∈ (lastAt c t hc0 hc1 x0 x1 xs0 xs1).2.2.1, y ∈ pc.1.set :=
  View.cover_of_tiledL (lastAt c t hc0 hc1 x0 x1 xs0 xs1).2.2.1 S1x1.size (by sl_kernel_rfl) y
/-- What the last point leaves in the output's block. -/
def lastOut (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) : Vec F S1x1 .f32 :=
  outV.read (Elt F) (outV.writes (Elt F) outV.junk (lastAt c t hc0 hc1 x0 x1 xs0 xs1).1)
/-- What the last point leaves in the first accumulator. -/
def lastAcc0 (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) : Vec F S1x1 .f32 :=
  acc0V.read (Elt F) (acc0V.writes (Elt F) acc0V.junk (lastAt c t hc0 hc1 x0 x1 xs0 xs1).2.1)
/-- What the last point leaves in the second accumulator. -/
def lastAcc1 (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) : Vec F S1x1 .f32 :=
  acc1V.read (Elt F) (acc1V.writes (Elt F) acc1V.junk (lastAt c t hc0 hc1 x0 x1 xs0 xs1).2.2.1)

/-! ## The accumulation over the grid -/

/-- The output's block where nothing has stored into it: contents no one reads. -/
def noOut : Vec F S1x1 .f32 := outV.read (Elt F) outV.junk

/-- What the output's block and the two accumulators hold after the body at point n: the case the point is in, run
    at the point's memrefs and input blocks, over what point n − 1 left in the accumulators. -/
def outsAt (c : Dev nD) : (n : ℕ) → n < cfg0.N → Vec F S1x1 .f32 × Vec F S1x1 .f32 × Vec F S1x1 .f32
  | 0, hn =>
    (noOut,
     firstAcc0 c ⟨0, hn⟩ ((isFirst_iff ⟨0, hn⟩).mpr rfl) (fun h => absurd ((isLast_iff ⟨0, hn⟩).mp h) (show ¬((0 : ℕ) = 63) by decide)) (iblk m c 0 ⟨0, hn⟩) (iblk m c 1 ⟨0, hn⟩),
     firstAcc1 c ⟨0, hn⟩ ((isFirst_iff ⟨0, hn⟩).mpr rfl) (fun h => absurd ((isLast_iff ⟨0, hn⟩).mp h) (show ¬((0 : ℕ) = 63) by decide)) (iblk m c 0 ⟨0, hn⟩) (iblk m c 1 ⟨0, hn⟩))
  | n + 1, hn =>
    if h1 : n + 1 = 63 then
      (lastOut c ⟨n + 1, hn⟩ (fun h => Nat.succ_ne_zero n ((isFirst_iff ⟨n + 1, hn⟩).mp h)) ((isLast_iff ⟨n + 1, hn⟩).mpr h1) (iblk m c 0 ⟨n + 1, hn⟩) (iblk m c 1 ⟨n + 1, hn⟩) (outsAt c n (Nat.lt_of_succ_lt hn)).2.1 (outsAt c n (Nat.lt_of_succ_lt hn)).2.2,
       lastAcc0 c ⟨n + 1, hn⟩ (fun h => Nat.succ_ne_zero n ((isFirst_iff ⟨n + 1, hn⟩).mp h)) ((isLast_iff ⟨n + 1, hn⟩).mpr h1) (iblk m c 0 ⟨n + 1, hn⟩) (iblk m c 1 ⟨n + 1, hn⟩) (outsAt c n (Nat.lt_of_succ_lt hn)).2.1 (outsAt c n (Nat.lt_of_succ_lt hn)).2.2,
       lastAcc1 c ⟨n + 1, hn⟩ (fun h => Nat.succ_ne_zero n ((isFirst_iff ⟨n + 1, hn⟩).mp h)) ((isLast_iff ⟨n + 1, hn⟩).mpr h1) (iblk m c 0 ⟨n + 1, hn⟩) (iblk m c 1 ⟨n + 1, hn⟩) (outsAt c n (Nat.lt_of_succ_lt hn)).2.1 (outsAt c n (Nat.lt_of_succ_lt hn)).2.2)
    else
      (noOut,
       midAcc0 c ⟨n + 1, hn⟩ (fun h => Nat.succ_ne_zero n ((isFirst_iff ⟨n + 1, hn⟩).mp h)) (fun h => h1 ((isLast_iff ⟨n + 1, hn⟩).mp h)) (iblk m c 0 ⟨n + 1, hn⟩) (iblk m c 1 ⟨n + 1, hn⟩) (outsAt c n (Nat.lt_of_succ_lt hn)).2.1 (outsAt c n (Nat.lt_of_succ_lt hn)).2.2,
       midAcc1 c ⟨n + 1, hn⟩ (fun h => Nat.succ_ne_zero n ((isFirst_iff ⟨n + 1, hn⟩).mp h)) (fun h => h1 ((isLast_iff ⟨n + 1, hn⟩).mp h)) (iblk m c 0 ⟨n + 1, hn⟩) (iblk m c 1 ⟨n + 1, hn⟩) (outsAt c n (Nat.lt_of_succ_lt hn)).2.1 (outsAt c n (Nat.lt_of_succ_lt hn)).2.2)

/-- What the point before t left (t not the first). -/
abbrev prevAt (c : Dev nD) (t : Fin cfg0.N) : Vec F S1x1 .f32 × Vec F S1x1 .f32 × Vec F S1x1 .f32 :=
  outsAt m c (t.val - 1) (Nat.lt_of_le_of_lt (Nat.sub_le _ _) t.isLt)

/-- `outsAt` at the first point. -/
theorem outsAt_first (c : Dev nD) (t : Fin cfg0.N) (h0 : t.val = 0) :
    outsAt m c t.val t.isLt = (noOut,
      firstAcc0 c t ((isFirst_iff t).mpr h0) (fun h => by have := (isLast_iff t).mp h; omega) (iblk m c 0 t) (iblk m c 1 t),
      firstAcc1 c t ((isFirst_iff t).mpr h0) (fun h => by have := (isLast_iff t).mp h; omega) (iblk m c 0 t) (iblk m c 1 t)) := by
  obtain ⟨n, hn⟩ := t
  cases n with
  | zero => rfl
  | succ n => exact absurd h0 (Nat.succ_ne_zero n)

/-- `outsAt` at a middle point, over what the point before left. -/
theorem outsAt_mid (c : Dev nD) (t : Fin cfg0.N) (h0 : ¬t.val = 0) (h1 : ¬t.val = 63) :
    outsAt m c t.val t.isLt = (noOut,
      midAcc0 c t (fun h => h0 ((isFirst_iff t).mp h)) (fun h => h1 ((isLast_iff t).mp h)) (iblk m c 0 t) (iblk m c 1 t) (prevAt m c t).2.1 (prevAt m c t).2.2,
      midAcc1 c t (fun h => h0 ((isFirst_iff t).mp h)) (fun h => h1 ((isLast_iff t).mp h)) (iblk m c 0 t) (iblk m c 1 t) (prevAt m c t).2.1 (prevAt m c t).2.2) := by
  obtain ⟨n, hn⟩ := t
  cases n with
  | zero => exact absurd rfl h0
  | succ n => exact (dif_neg h1).trans rfl

/-- `outsAt` at the last point, over what the point before left. -/
theorem outsAt_last (c : Dev nD) (t : Fin cfg0.N) (h0 : ¬t.val = 0) (h1 : t.val = 63) :
    outsAt m c t.val t.isLt = (
      lastOut c t (fun h => h0 ((isFirst_iff t).mp h)) ((isLast_iff t).mpr h1) (iblk m c 0 t) (iblk m c 1 t) (prevAt m c t).2.1 (prevAt m c t).2.2,
      lastAcc0 c t (fun h => h0 ((isFirst_iff t).mp h)) ((isLast_iff t).mpr h1) (iblk m c 0 t) (iblk m c 1 t) (prevAt m c t).2.1 (prevAt m c t).2.2,
      lastAcc1 c t (fun h => h0 ((isFirst_iff t).mp h)) ((isLast_iff t).mpr h1) (iblk m c 0 t) (iblk m c 1 t) (prevAt m c t).2.1 (prevAt m c t).2.2) := by
  obtain ⟨n, hn⟩ := t
  cases n with
  | zero => exact absurd rfl h0
  | succ n => exact (dif_pos h1).trans rfl

/-! ## The region's invariant -/

/-- Before point n: before the first point the class invariant (the accumulators at anything); afterwards the two
    accumulators at what point n − 1 left, and the generator register at some state. -/
def PhiS (c : Dev nD) : (n : ℕ) → n ≤ cfg0.N → sProp 𝕄
  | 0, _ => Pipeline.ΦA spec0 c
  | n + 1, hn => iprop(iprop(owns (c : Thread nD τ) acc0M fullShare ((outsAt m c n hn).2.1) ∗ owns (c : Thread nD τ) acc1M fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) acc0M fullShare ((outsAt m c n hn).2.1) ∗ owns (c : Thread nD τ) acc1M fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) acc0M fullShare ((outsAt m c (n - 1) (by omega)).2.1) ∗ owns (c : Thread nD τ) acc1M fullShare ((outsAt m c (n - 1) (by omega)).2.2)) ∗ (∃ r, prngReg c r)) := by
  cases n with
  | zero => exact absurd rfl hz
  | succ n => rfl

/-! ## The proof data -/

/-- The proof data of the one pipeline on core c: the arrays at the launch contents; after the body at point t each
    input's buffer at its block and the output's at `outsAt`; the invariant `PhiS`; the two input windows lent the two
    halves of their common array; nothing owed. -/
def dats (_ : Fin 1) (c : Dev nD) : Dat τ (Elt F) Unit ℕ (UR sig nD τ) ℕ cfg0 c where
  A w := m ((c.tc : Thread nD τ).loc (Pipeline.arrRef spec0 w))
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = m ((c.tc : Thread nD τ).loc (Pipeline.arrRef spec0 w)) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]

/-- Each input window's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

end Cert.Kernel.Hand

end
-- ==== Proof.K.Body.lean ====
/-
  The body obligation: at every grid point, from the region's invariant and the windows' current buffers as the
  pipeline hands them, the kernel's body runs to the invariant at the next point and the buffers as the proof data
  say it leaves them.

  The point is the first, a middle one or the last; the closed forms of the two branch conditions say which, and that
  case's run applies: the input buffers hold their blocks, the accumulators hold what the point before left (anything at
  the first point), the output's buffer is handed back untouched except at the last point, where it takes the result.
-/
import proofs.«137138_j82729660056292_1_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (st0 t) fullShare (iblk m c 0 t) := by
  unfold Dat.leavesExact; rw [live0 t, after0]
theorem leaves1 (c : Dev nD) (t : Fin cfg0.N) :
    (dats m 0 c).leavesExact 1 t = owns (c : Thread nD τ) (st1 t) fullShare (iblk m c 1 t) := by
  unfold Dat.leavesExact; rw [live1 t, after1]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 64 := lt_of_lt_of_eq t.isLt (show cfg0.N = 64 from N_0)
  by_cases h0 : t.val = 0
  · -- the first point
    have h1 : ¬t.val = 63 := by omega
    have hl : ¬isLast (grid0.coords t) := fun h => h1 ((isLast_iff t).mp h)
    rw [Dat.leavesExact_idle (dats m 0 c) 2 t (idle2 t hl) (noFlush2 t hl)]
    rw [outsAt_first m c t h0]
    unfold firstAcc0 firstAcc1; (try dsimp only)
    rw [PhiS_castSucc m c t, PhiS_zero m c _ _ h0, PhiA_eq]
    iintro ⟨⟨⟨HS0, HS1⟩, Hg⟩, Ho, ⟨%d0, H0⟩, ⟨%d1, H1⟩, ⟨%d2, H2⟩⟩
    iapply ((firstAt c t ((isFirst_iff t).mpr h0) (fun h => by have := (isLast_iff t).mp h; omega) (iblk m c 0 t) (iblk m c 1 t)).2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (firstCover0 c t _ _ _ _)
        · unfold owns; iexists _; isplitr
          swap; · iexact HS1
          ipureintro; exact View.read_writes_of_cover _ _ _ _ _ (firstCover1 c t _ _ _ _)
      iexact Hg
    isplitl [Ho]; · iexact Ho
    isplitl [H0]; · iexact H0
    isplitl [H1]; · iexact H1
    iexists _; iexact H2
  · by_cases h1 : t.val = 63
    · -- the last point
      have hl : isLast (grid0.coords t) := (isLast_iff t).mpr h1
      rw [show (dats m 0 c).leavesExact 2 t = owns (c : Thread nD τ) (st2 t) fullShare ((dats m 0 c).after 2 t) from by
        unfold Dat.leavesExact; rw [live2 t hl], after2]
      rw [outsAt_last m c t h0 h1]
      unfold lastOut lastAcc0 lastAcc1; (try dsimp only)
      rw [PhiS_castSucc m c t, PhiS_pos m c _ _ h0]
      iintro ⟨⟨⟨HS0, HS1⟩, Hg⟩, Ho, ⟨%d0, H0⟩, ⟨%d1, H1⟩, ⟨%d2, H2⟩⟩
      iapply ((lastAt c t (fun h => h0 ((isFirst_iff t).mp h)) hl (iblk m c 0 t) (iblk m c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (lastCover0 c t _ _ _ _ _ _)
          · unfold owns; iexists _; isplitr
            swap; · iexact HS1
            ipureintro; exact View.read_writes_of_cover _ _ _ _ _ (lastCover1 c t _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (lastCoverOut c t _ _ _ _ _ _)
    · -- a middle point
      have hl : ¬isLast (grid0.coords t) := fun h => h1 ((isLast_iff t).mp h)
      rw [Dat.leavesExact_idle (dats m 0 c) 2 t (idle2 t hl) (noFlush2 t hl)]
      rw [outsAt_mid m c t h0 h1]
      unfold midAcc0 midAcc1; (try dsimp only)
      rw [PhiS_castSucc m c t, PhiS_pos m c _ _ h0]
      iintro ⟨⟨⟨HS0, HS1⟩, Hg⟩, Ho, ⟨%d0, H0⟩, ⟨%d1, H1⟩, ⟨%d2, H2⟩⟩
      iapply ((midAt c t (fun h => h0 ((isFirst_iff t).mp h)) hl (iblk m c 0 t) (iblk m c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (midCover0 c t _ _ _ _ _ _)
          · unfold owns; iexists _; isplitr
            swap; · iexact HS1
            ipureintro; exact View.read_writes_of_cover _ _ _ _ _ (midCover1 c t _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the accumulators' contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨⟨HS0, HS1⟩, Hg⟩
  isplitl [HS0 HS1]
  · isplitl [HS0]
    · iexists _; iexact HS0
    · iexists _; iexact HS1
  iexact Hg

end Cert.Kernel.Hand

end
-- ==== Proof.K.Launch.lean ====
/-
  The launch of the one kernel region when two of its input windows read the same array, followed by the host
  operation after the region.

  The array both input windows read is held whole by the program; each of the two windows is lent one half of it
  (the left and the right half share), which is enough to fetch from it and never to write it. The output window's
  array is held whole. After the region each window keeps its half, untouched (an input array is never written back,
  so both halves still hold the entry contents), and the one host operation after the region (a reshape of the region's
  result) runs on the region's result array, as the last write-back left it, and on the program's result buffer.
-/
import proofs.«137138_j82729660056292_1_alg».proof.Proof.Gen.Kernel.Launch
import proofs.«137138_j82729660056292_1_alg».proof.Proof.Gen.Kernel.Points
import Idealize.ShloMosaic.Lib.Pipeline.FrameSuffix
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffer contents at the region's exit: the launch contents, with the region's result array at what the
    last write-back left in it. -/
def exitVal (dats : (p : Fin 1) → (c : Dev nD) → Dat τ (Elt F) Unit ℕ (UR sig nD τ) ℕ (cfgs p) c) (c : Dev nD) :
    Valuation τ sig (Elt F) :=
  Function.update (fun b => m (c, b)) (Proc.devRef .tc main_call0_v0) ((dats 0 c).arrAt 2 cfg0.N)

/-- The shares the pipeline holds its three arrays at: the two input windows the two halves of the full share, the
    output window the full share. -/
theorem share_eq (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right) (c : Dev nD) :
    (dats 0 c).share 0 = fullShare.left ∧ (dats 0 c).share 1 = fullShare.right ∧ (dats 0 c).share 2 = fullShare := by
  refine ⟨?_, ?_, ?_⟩
  · unfold Dat.share; exact (if_neg (by decide)).trans (hq0 c)
  · unfold Dat.share; exact (if_neg (by decide)).trans (hq1 c)
  · unfold Dat.share; exact if_pos (by decide)

/-- The buffers behind the windows' arrays are the argument array and the region's result array. -/
theorem arrRef_image : (Finset.univ.image (Pipeline.arrRef spec0) : Finset (Ref sig .tc)) = {main_arg0, main_call0_v0} := by decide

/-- AT ENTRY. The argument array, held whole, is split into its two half shares, one for each input window; the
    result array goes whole to the output window. -/
theorem hsplit_c (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hA0 : ∀ c, (dats 0 c).A 0 = m ((c.tc : Thread nD τ).loc main_arg0))
    (hA1 : ∀ c, (dats 0 c).A 1 = m ((c.tc : Thread nD τ).loc main_arg0))
    (hA2 : ∀ c, (dats 0 c).A 2 = m ((c.tc : Thread nD τ).loc main_call0_v0)) (c : Dev nD) :
    (Pipeline.arrBufs spec0 c (fun b => m ((c.tc : Thread nD τ).loc b)) : sProp 𝕄)
      ⊢ (dats 0 c).arrays ((dats 0 c).arrAt · 0) := by
  obtain ⟨hs0, hs1, hs2⟩ := share_eq dats hq0 hq1 c
  unfold Pipeline.arrBufs Dat.arrays
  rw [arrRef_image, bigSep_W0, bigSep_insert (by decide), bigSep_singleton]
  rw [hs0, hs1, hs2, (arr_whole0 0).set_eq_univ, (arr_whole0 2).set_eq_univ]
  show iprop((((c.tc : Thread nD τ).loc main_arg0) ↦{fullShare} m ((c.tc : Thread nD τ).loc main_arg0))
        ∗ (((c.tc : Thread nD τ).loc main_call0_v0) ↦{fullShare} m ((c.tc : Thread nD τ).loc main_call0_v0)))
      ⊢ iprop((((c.tc : Thread nD τ).loc main_arg0) ↦{fullShare.left} (dats 0 c).A 0)
        ∗ (((c.tc : Thread nD τ).loc main_arg0) ↦{fullShare.right} (dats 0 c).A 1)
        ∗ (((c.tc : Thread nD τ).loc main_call0_v0) ↦{fullShare} (dats 0 c).A 2))
  rw [hA0 c, hA1 c, hA2 c]
  iintro ⟨Ha, Hr⟩
  ihave H := (pointsTo_share (PosShare.mem_left_op_right fullShare)).1 $$ Ha
  icases H with ⟨H0, H1⟩
  isplitl [H0]
  · iexact H0
  isplitl [H1]
  · iexact H1
  iexact Hr

/-- The region's exit contents at the region's result array: what the last write-back left; -/
theorem exitVal_call0 (dats : (p : Fin 1) → (c : Dev nD) → Dat τ (Elt F) Unit ℕ (UR sig nD τ) ℕ (cfgs p) c) (c : Dev nD) :
    exitVal m dats c (Proc.devRef .tc main_call0_v0) = (dats 0 c).arrAt 2 cfg0.N := by
  unfold exitVal; exact Function.update_self ..

/-- and at the program's result buffer: the launch contents. -/
theorem exitVal_v0 (dats : (p : Fin 1) → (c : Dev nD) → Dat τ (Elt F) Unit ℕ (UR sig nD τ) ℕ (cfgs p) c) (c : Dev nD) :
    exitVal m dats c (Proc.devRef .tc main_v0) = m ((c.tc : Thread nD τ).loc main_v0) := by
  unfold exitVal
  exact Function.update_of_ne (StableHlo.devRef_ne_of_ne (τ := τ) (by decide)) ..

/-- The two buffers the host operation after the region touches: the region's result array and the program's result. -/
abbrev tailS : Finset (DevRef τ sig) := {Proc.devRef .tc main_call0_v0, Proc.devRef .tc main_v0}

/-- Holding those two buffers at a valuation is holding each. -/
theorem held_tailS (c : Dev nD) (W : Valuation τ sig (Elt F)) :
    (StableHlo.held (c.tc : Thread nD τ) tailS W : sProp 𝕄)
      = iprop((((c.tc : Thread nD τ).loc main_call0_v0) ↦{fullShare} W (Proc.devRef .tc main_call0_v0))
          ∗ (((c.tc : Thread nD τ).loc main_v0) ↦{fullShare} W (Proc.devRef .tc main_v0))) := by
  unfold StableHlo.held tailS
  rw [bigSep_insert (by rw [Finset.mem_singleton]; exact StableHlo.devRef_ne_of_ne (τ := τ) (by decide)), bigSep_singleton]
  rfl

/-- The host operation after the region keeps within those two buffers, -/
theorem hostOps1_tailS : ∀ ops ∈ ([hostOps1] : List (List (HloOp τ sig (Elt F)))), ∀ op ∈ ops, op.bufs ⊆ tailS := by
  intro ops hops op hop
  simp only [List.mem_cons, List.mem_nil_iff, or_false] at hops
  subst hops
  simp only [List.mem_cons, List.mem_nil_iff, or_false] at hop
  subst hop
  exact subset_refl _

/-- allocates nothing, -/
theorem hostOps1_fresh : ∀ ops ∈ ([hostOps1] : List (List (HloOp τ sig (Elt F)))), ∀ op ∈ ops, op.fresh = ∅ := by
  intro ops hops op hop
  simp only [List.mem_cons, List.mem_nil_iff, or_false] at hops
  subst hops
  simp only [List.mem_cons, List.mem_nil_iff, or_false] at hop
  subst hop
  rfl

/-- and leaves the region's result array as it found it: it writes the program's result only. -/
theorem after_call0 (W : Valuation τ sig (Elt F)) :
    StableHlo.after (hostOps1 (F := F)) W (Proc.devRef .tc main_call0_v0) = W (Proc.devRef .tc main_call0_v0) :=
  StableHlo.after_of_forall_not_mem _ _ fun op hop => by
    simp only [List.mem_cons, List.mem_nil_iff, or_false] at hop
    subst hop
    rw [StableHlo.reshape_writes, Finset.mem_singleton]
    exact StableHlo.devRef_ne_of_ne (τ := τ) (by decide)

set_option backward.isDefEq.respectTransparency.types false in
/-- AFTER THE REGION. The two input windows keep their halves of the argument array untouched; the reshape runs on the
    region's result array, as the last write-back left it, and on the program's result buffer, and hands the first
    back unchanged and the second at what it computes from the exit contents. -/
theorem htail_c (dats : (p : Fin 1) → (c : Dev nD) → Dat τ (Elt F) Unit ℕ (UR sig nD τ) ℕ (cfgs p) c) (c : Dev nD) (Q' : PUnit → sProp 𝕄) :
    iprop((iprop((dats 0 c).arrays ((dats 0 c).arrAt · cfg0.N)
              ∗ (((c.tc : Thread nD τ).loc main_v0) ↦{fullShare} StableHlo.after (hostOps1 (F := F)) (exitVal m dats c) (Proc.devRef .tc main_v0))) -∗ Q' ⟨⟩)
        ∗ boundary (c.tc : Thread nD τ) ∗ (dats 0 c).arrays ((dats 0 c).arrAt · cfg0.N)
        ∗ (((c.tc : Thread nD τ).loc main_v0) ↦{fullShare} m ((c.tc : Thread nD τ).loc main_v0)))
      ⊢ wp frame (wpE (Pipeline.defs (fun p => (cfgs p).toPCfg) (defs₀ (F := F))) (Variants.lift Variants.none) (c.tc : Thread nD τ) none)
          Set.univ (Pipeline.chain [StableHlo.seq hostOps1]) Q' := by
  have hs2 : (dats 0 c).share 2 = fullShare := by unfold Dat.share; exact if_pos (by decide)
  unfold Dat.arrays
  rw [bigSep_W0, hs2, (arr_whole0 2).set_eq_univ]
  have hpost : (StableHlo.held (c.tc : Thread nD τ) tailS
        (StableHlo.after (([hostOps1] : List (List (HloOp τ sig (Elt F)))).flatten) (exitVal m dats c)) : sProp 𝕄)
      = iprop((((c.tc : Thread nD τ).loc main_call0_v0) ↦{fullShare} (dats 0 c).arrAt 2 cfg0.N)
          ∗ (((c.tc : Thread nD τ).loc main_v0) ↦{fullShare} StableHlo.after (hostOps1 (F := F)) (exitVal m dats c) (Proc.devRef .tc main_v0))) := by
    rw [show (([hostOps1] : List (List (HloOp τ sig (Elt F)))).flatten) = hostOps1 from rfl, held_tailS, after_call0, exitVal_call0]
  show _ ⊢ wp frame _ Set.univ (Pipeline.chain (([hostOps1] : List (List (HloOp τ sig (Elt F)))).map StableHlo.seq ++ [])) Q'
  iintro ⟨Hk, Hb, ⟨H0, H1, H2⟩, Hz⟩
  ihave Hheld : (StableHlo.held (c.tc : Thread nD τ) tailS (exitVal m dats c) : sProp 𝕄) $$ [H2 Hz]
  · rw [held_tailS, exitVal_call0, exitVal_v0]
    isplitl [H2]
    · iexact H2
    iexact Hz
  iapply (Pipeline.wp_seqs_then (fun p => (cfgs p).toPCfg) (defs₀ (F := F)) Variants.none c tailS [] [hostOps1]
    hostOps1_tailS hostOps1_fresh (exitVal m dats c)) $$ [Hb Hheld]
  · isplitl [Hb]
    · iexact Hb
    iexact Hheld
  iintro ⟨Hb, Hheld⟩
  rw [Pipeline.chain_nil, wp_pure]
  imodintro
  iapply Hk
  ihave Hheld := (Entails.of_eq hpost) $$ Hheld
  icases Hheld with ⟨H2, Hz⟩
  isplitr [Hz]
  · isplitl [H0]
    · iexact H0
    isplitl [H1]
    · iexact H1
    iexact H2
  iexact Hz

/-- THE RUN. For any proof data of the one pipeline that lends the two input windows the two halves of their common
    array, owes nothing, starts from the launch contents and enters and leaves the class invariant: every weakly fair
    execution of @main terminates, the argument array ends unchanged, and the result holds what the host operation
    after the region computes from the region's result array. -/
theorem run_shared (dats : (p : Fin 1) → (c : Dev nD) → Dat τ (Elt F) Unit ℕ (UR sig nD τ) ℕ (cfgs p) c)
    (hbody : ∀ c, BodyObligationLoose (dats 0 c) (defs₀ (F := F)) Variants.none () Set.univ)
    (hq0 : ∀ c, (dats 0 c).q 0 = fullShare.left) (hq1 : ∀ c, (dats 0 c).q 1 = fullShare.right)
    (howed : ∀ c t, (dats 0 c).owed t = 0)
    (hA0 : ∀ c, (dats 0 c).A 0 = m ((c.tc : Thread nD τ).loc main_arg0))
    (hA1 : ∀ c, (dats 0 c).A 1 = m ((c.tc : Thread nD τ).loc main_arg0))
    (hA2 : ∀ c, (dats 0 c).A 2 = m ((c.tc : Thread nD τ).loc main_call0_v0))
    (hin : ∀ c, Pipeline.ΦA spec0 c ⊢ (dats 0 c).Φ 0)
    (hout : ∀ c, (dats 0 c).Φ (Fin.last cfg0.N) ⊢ Pipeline.ΦA spec0 c) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v0)
          = StableHlo.after (hostOps1 (F := F)) (exitVal m dats c) (Proc.devRef .tc main_v0)) := by
  classical
  unfold defs
  refine Pipeline.θ_run_region_pf_tail (fun p => (cfgs p).toPCfg) (fun p => (cfgs p).toPCfg_adm) dats () cellOf_inj 0 winFacts₀0
    (Pipeline.OwnSemFacts.none _) (Pipeline.PreFacts.none _) emb₁ defs₀ Variants.none m ρ main
    (fun _ => Pipeline.chain [StableHlo.seq hostOps1]) hbody block_pos0 arr_whole0 stage_whole0 howed
    (G := fun _ => iprop(emp))
    (u₀ := initOf (Pipeline.cells cfgs cellOf_inj) (Pipeline.launchToks cfgs cellOf_inj))
    (hu₀ := ?hu)
    (V := fun c b => m ((c.tc : Thread nD τ).loc b)) (hmain := ?hmain) (hsplit := ?hsplit)
    (hpf := fun _ k => k.elim0)
    (X := fun c => iprop(∃ r, prngReg c r)) (Y := fun c => iprop(∃ r, prngReg c r))
    (Z := fun c => iprop(((c.tc : Thread nD τ).loc main_v0) ↦{fullShare} m ((c.tc : Thread nD τ).loc main_v0)))
    (Z' := fun c => iprop(((c.tc : Thread nD τ).loc main_v0) ↦{fullShare} StableHlo.after (hostOps1 (F := F)) (exitVal m dats c) (Proc.devRef .tc main_v0)))
    (hX := ?hX) (hin := ?hin) (hout := ?hout) (htail := ?htail)
    (QY := fun c s => s.mem ((c.tc : Thread nD τ).loc main_v0) = StableHlo.after (hostOps1 (F := F)) (exitVal m dats c) (Proc.devRef .tc main_v0))
    (hY := ?hY) (hQ := ?hQ)
  case hu =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hX =>
    intro c
    rw [Pipeline.unscopedRestP_none]
    rw [show Pipeline.unscopedRest (Ix := Unit) (Name := ℕ) (U := UR sig nD τ) (Lvl := ℕ) (Pipeline.pin (fun p => (cfgs p).toPCfg (Val := Elt F)) (fun p => (cfgs p).toPCfg_adm) 0).spec c (fun b => m ((c.tc : Thread nD τ).loc b))
        = iprop((((c.tc : Thread nD τ).loc main_v0) ↦{fullShare} m ((c.tc : Thread nD τ).loc main_v0))) from unscopedRest0_eq c _]
    iintro ⟨HU, -, -, -, Hp, -⟩; imodintro
    isplitl [Hp]
    · iexists _; iexact Hp
    iexact HU
  case hin =>
    intro c
    refine (show _ ⊢ Pipeline.ΦA spec0 c from ?_).trans (hin c)
    unfold Pipeline.ΦA
    iintro ⟨Hp, -, Hr⟩
    isplitl [Hr] <;> iassumption
  case hout =>
    intro c
    refine (hout c).trans ?_
    rw [Pipeline.ownSems0_none]; unfold Pipeline.ΦA
    iintro ⟨Hr, Hp⟩
    isplitl [Hp]
    · iexact Hp
    isplitr
    · iempintro
    iexact Hr
  case hmain =>
    exact Pipeline.hmain_around cfgs 0 defs₀ Variants.none m main [] [hostOps1] (by simp only [List.Forall])
      (by simp only [List.Forall]) main_chain
  case hsplit => exact fun c => hsplit_c m dats hq0 hq1 hA0 hA1 hA2 c
  case htail => exact fun c Q' => htail_c m dats c Q'
  case hY =>
    intro c s'
    iintro ⟨-, HU, HSI⟩
    imodintro
    icombine HSI HU gives %h
    isplitr
    · ipureintro
      exact Buf.eq_of_forall_mem_univ h
    · iexact HSI
  case hQ =>
    intro s h c
    refine ⟨?_, (h c).2.2⟩
    have h0 := (h c).1 0
    rw [(dats 0 c).arrAt_in 0 rfl _, hA0 c] at h0
    exact h0

end Cert.Kernel.Hand

end
-- ==== Proof.K.Run.lean ====
/-
  The kernel program's run: the launch with the proof data and the body obligation; the frame; and, over the extended
  reals, the result.
-/
import proofs.«137138_j82729660056292_1_alg».proof.Proof.K.Body
import proofs.«137138_j82729660056292_1_alg».proof.Proof.K.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates; the argument array ends unchanged and the scalar result holds
    what the host operation after the region computes from the region's result array. -/
theorem run_main : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v0)
          = StableHlo.after (hostOps1 (F := F)) (exitVal m (dats m) c) (Proc.devRef .tc main_v0)) :=
  run_shared m ρ (dats m) (fun c => (body_obligation m c).loose) (fun _ => rfl) (fun _ => rfl) (fun _ _ => rfl)
    (fun c => A_eq m c 0) (fun c => A_eq m c 1) (fun c => A_eq m c 2) (hin m) (hout m)

/-- THE FRAME: the program runs to the end, faults nowhere, and leaves its argument array unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run (defs (F := F)) _ _).mono (fun _ h c => (h c).1) (run_main m ρ)

end Cert.Kernel.Hand

end
-- ==== Proof.KI.Base.lean ====
/-
  What the three runs of the kernel body and the body obligation share.

  The grid has 64 points. The body resets its two accumulators at the first point, adds to them at every point, and
  stores the result into the output's block at the last point only; the output's window is idle at every other
  point. Here: the two branch conditions decided over the grid, where the output's window is idle and where it is
  written back, names for the staging and scratch memrefs the body is called with, and the region's class invariant
  opened into the two accumulators and the generator register.
-/
import proofs.«137138_j82729660056292_1_alg».proof.Proof.Gen.KernelIdeal.Launch
import proofs.«137138_j82729660056292_1_alg».proof.Proof.Gen.KernelIdeal.Skeleton
import proofs.«137138_j82729660056292_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions over the grid -/

/-- The body's first branch (the accumulators' reset) is taken: the grid coordinate is 0. -/
abbrev isFirst (i : grid0.Coords) : Prop :=
  (Scalar.cmpi .ne (Scalar.extui (Scalar.cmpi .eq (BitVec.ofNat 32 (i 0).val) 0#32)) 0#32) = 1#1
/-- It is taken at point 0 and nowhere else. -/
theorem isFirst_iff : ∀ t : Fin cfg0.N, isFirst (grid0.coords t) ↔ t.val = 0 :=
  (by decide +kernel : ∀ t : Fin grid0.N, isFirst (grid0.coords t) ↔ t.val = 0)

/-- The body's last branch (the result's store) is taken: the grid coordinate is 63. -/
abbrev isLast (i : grid0.Coords) : Prop := k0_cond2 i = 1#1
/-- It is taken at point 63 and nowhere else. -/
theorem isLast_iff : ∀ t : Fin cfg0.N, isLast (grid0.coords t) ↔ t.val = 63 :=
  (by decide +kernel : ∀ t : Fin grid0.N, isLast (grid0.coords t) ↔ t.val = 63)

/-! ## Where the windows are idle, and where the output is written back -/

/-- The two input windows are never idle. -/
theorem live0 : ∀ t : Fin cfg0.N, cfg0.idle 0 (grid0.coords t) = false := by decide +kernel
theorem live1 : ∀ t : Fin cfg0.N, cfg0.idle 1 (grid0.coords t) = false := by decide +kernel
/-- Away from the last point the output's window is idle and is not written back. -/
theorem idle2 : ∀ t : Fin cfg0.N, ¬isLast (grid0.coords t) → cfg0.idle 2 (grid0.coords t) = true := by decide +kernel
theorem noFlush2 : ∀ t : Fin cfg0.N, ¬isLast (grid0.coords t) → (cfg0.win 2).flush t = false := by decide +kernel
/-- At the last point it is live. -/
theorem live2 : ∀ t : Fin cfg0.N, isLast (grid0.coords t) → cfg0.idle 2 (grid0.coords t) = false := by decide +kernel

/-! ## The memrefs the body is called with -/

/-- Each window's current staging memref at point t, as the pipeline passes it, and its wholeness. -/
abbrev st0 (t : Fin cfg0.N) : Memref sig .tc .vmem S128x128 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S8192x128 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S1x1 .f32 := win0_2.stage (cfg0.slots t 2)
abbrev hst2 (t : Fin cfg0.N) : (st2 t).IsWhole := hstage0_2 ((cfg0.slots t 2).cast nbuf0_2)
/-- The two accumulators: whole scoped buffers of the kernel's own. -/
abbrev acc0M : Memref sig .tc .vmem S1x1 .f32 := Memref.whole cc0_scratch0
abbrev acc1M : Memref sig .tc .vmem S1x1 .f32 := Memref.whole cc0_scratch1
/-- Views through which the accumulators' and the output block's contents are stated. -/
abbrev acc0V : View sig .tc .vmem S1x1 .f32 := acc0M.view
abbrev acc1V : View sig .tc .vmem S1x1 .f32 := acc1M.view
abbrev outV : View sig .tc .vmem S1x1 .f32 := (Memref.whole cc0_stg2_0 : Memref sig .tc .vmem S1x1 .f32).view

/-! ## The class invariant, opened -/

/-- The region's class invariant is the two accumulators owned at some contents and the generator register at some
    state. -/
theorem PhiA_eq (c : Dev nD) :
    (Pipeline.ΦA spec0 c : sProp 𝕄)
      = iprop(iprop((∃ d, owns (c : Thread nD τ) acc0M fullShare d) ∗ (∃ d, owns (c : Thread nD τ) acc1M fullShare d)) ∗ (∃ r, prngReg c r)) := by
  unfold Pipeline.ΦA; rw [scopedRest0_eq]; simp only [acc0M, acc1M, owns_whole]; try rfl

/-! ## The input windows' blocks -/

/-- Input window w's block at point t, read off the argument array. -/
def iblk (c : Dev nD) (w : Fin cfg0.W) (t : Fin cfg0.N) : ((cfg0.win w).xblock (cfg0.grid.coords t)).Idx → Elt F (cfg0.win w).elt :=
  ((cfg0.win w).blk t).view.read (Elt F) (m ((c.tc : Thread nD τ).loc (Pipeline.arrRef spec0 w)))

end Cert.KernelIdeal.Hand

end
-- ==== Proof.KI.RunFirst.lean ====
/-
  The kernel body at the first point: the accumulators are reset, then added to; no result yet.

  On whole memrefs — the two input blocks at their contents, the output's block at contents it never touches, the two
  accumulators at anything — the body runs to a state with the inputs and the output's block as they were and each
  accumulator overwritten, first by the reset and then by the sum; the stores' pieces are what the run finds.
-/
import proofs.«137138_j82729660056292_1_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body's run at the first point, with the pieces its stores leave in the two accumulators. -/
noncomputable def runFirst (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole)
    (hc0 : isFirst i) (hc1 : ¬isLast i)
    (x0 : Vec F S128x128 .f32) (x1 : Vec F S8192x128 .f32) :
    Σ' (LS0 : List (View.Piece (Elt F) S1x1 .f32)), { LS1 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__ptm_loss_kernel i arg1 harg1 arg2 harg2 arg3 harg3 arg4 harg4 arg5 harg5) K } := by
  refine ⟨?_, ?_, fun xi2 E K => ?run⟩
  case run =>
    simp only [cc0__ptm_loss_kernel_eq_skeleton]; unfold cc0__ptm_loss_kernel_skel
    simp only [k0_part1_eq_skeleton, k0_part2_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KI.RunMid.lean ====
/-
  The kernel body at a point that is neither the first nor the last: no reset, no result.

  On whole memrefs — the two input blocks at their contents, the output's block at contents it never touches, the two
  accumulators at what the point before left — the body runs to a state with the inputs and the output's block as
  they were and each accumulator overwritten by one store; the stores' pieces are what the run finds.
-/
import proofs.«137138_j82729660056292_1_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body's run at a middle point, with the pieces its stores leave in the two accumulators. -/
noncomputable def runMid (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole)
    (hc0 : ¬isFirst i) (hc1 : ¬isLast i)
    (x0 : Vec F S128x128 .f32) (x1 : Vec F S8192x128 .f32) (xs0 xs1 : Vec F S1x1 .f32) :
    Σ' (LS0 : List (View.Piece (Elt F) S1x1 .f32)), { LS1 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__ptm_loss_kernel i arg1 harg1 arg2 harg2 arg3 harg3 arg4 harg4 arg5 harg5) K } := by
  refine ⟨?_, ?_, fun xi2 E K => ?run⟩
  case run =>
    simp only [cc0__ptm_loss_kernel_eq_skeleton]; unfold cc0__ptm_loss_kernel_skel
    simp only [k0_part1_eq_skeleton, k0_part2_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KI.RunLast.lean ====
/-
  The kernel body at the last point: the accumulators are added to, then the result is stored into the output's
  block.

  On whole memrefs — the two input blocks at their contents, the output's block at anything, the two accumulators at
  what the point before left — the body runs to a state with the inputs as they were, each accumulator overwritten by
  one store and the output's block overwritten by the result; the stores' pieces are what the run finds.
-/
import proofs.«137138_j82729660056292_1_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body's run at the last point, with the pieces its stores leave in the output's block and the accumulators. -/
noncomputable def runLast (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole)
    (hc0 : ¬isFirst i) (hc1 : isLast i)
    (x0 : Vec F S128x128 .f32) (x1 : Vec F S8192x128 .f32) (xs0 xs1 : Vec F S1x1 .f32) :
    Σ' (L2 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__ptm_loss_kernel i arg1 harg1 arg2 harg2 arg3 harg3 arg4 harg4 arg5 harg5) K } := by
  refine ⟨?_, ?_, ?_, fun E K => ?run⟩
  case run =>
    simp only [cc0__ptm_loss_kernel_eq_skeleton]; unfold cc0__ptm_loss_kernel_skel
    simp only [k0_part1_eq_skeleton, k0_part2_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.KernelIdeal.Hand

end
-- ==== Proof.KI.Data.lean ====
/-
  The proof data of the one pipeline and the body obligation.

  After point t the first accumulator holds what the body's stores at t left in it, over what point t − 1 left; the
  same for the second; the output's block holds the result after the last point. The region's invariant carries the two
  accumulators at those contents from point to point (at anything before the first point). The two input windows hold
  their blocks of the argument array at every point; each is lent one half of that array.
-/
import proofs.«137138_j82729660056292_1_alg».proof.Proof.KI.RunFirst
import proofs.«137138_j82729660056292_1_alg».proof.Proof.KI.RunMid
import proofs.«137138_j82729660056292_1_alg».proof.Proof.KI.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point's memrefs -/

abbrev firstAt (c : Dev nD) (t : Fin cfg0.N) (hc0 : isFirst (grid0.coords t)) (hc1 : ¬isLast (grid0.coords t))
    (x0 : Vec F S128x128 .f32) (x1 : Vec F S8192x128 .f32) :=
  runFirst (F := F) c (grid0.coords t) (st0 t) (hst0 t) (st1 t) (hst1 t) (st2 t) (hst2 t) acc0M (Memref.isWhole_whole _) acc1M (Memref.isWhole_whole _) hc0 hc1 x0 x1
abbrev midAt (c : Dev nD) (t : Fin cfg0.N) (hc0 : ¬isFirst (grid0.coords t)) (hc1 : ¬isLast (grid0.coords t))
    (x0 : Vec F S128x128 .f32) (x1 : Vec F S8192x128 .f32) (xs0 xs1 : Vec F S1x1 .f32) :=
  runMid (F := F) c (grid0.coords t) (st0 t) (hst0 t) (st1 t) (hst1 t) (st2 t) (hst2 t) acc0M (Memref.isWhole_whole _) acc1M (Memref.isWhole_whole _) hc0 hc1 x0 x1 xs0 xs1
abbrev lastAt (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) :=
  runLast (F := F) c (grid0.coords t) (st0 t) (hst0 t) (st1 t) (hst1 t) (st2 t) (hst2 t) acc0M (Memref.isWhole_whole _) acc1M (Memref.isWhole_whole _) hc0 hc1 x0 x1 xs0 xs1

/-! ## What each case leaves: its stores' pieces read back, and that they cover the buffer -/

theorem firstCover0 (c : Dev nD) (t : Fin cfg0.N) (hc0 : isFirst (grid0.coords t)) (hc1 : ¬isLast (grid0.coords t))
    (x0 : Vec F S128x128 .f32) (x1 : Vec F S8192x128 .f32) (y : S1x1.Idx) : ∃ pc ∈ (firstAt c t hc0 hc1 x0 x1).1, y ∈ pc.1.set :=
  View.cover_of_tiledL (firstAt c t hc0 hc1 x0 x1).1 S1x1.size (by sl_kernel_rfl) y
theorem firstCover1 (c : Dev nD) (t : Fin cfg0.N) (hc0 : isFirst (grid0.coords t)) (hc1 : ¬isLast (grid0.coords t))
    (x0 : Vec F S128x128 .f32) (x1 : Vec F S8192x128 .f32) (y : S1x1.Idx) : ∃ pc ∈ (firstAt c t hc0 hc1 x0 x1).2.1, y ∈ pc.1.set :=
  View.cover_of_tiledL (firstAt c t hc0 hc1 x0 x1).2.1 S1x1.size (by sl_kernel_rfl) y
/-- What the first point leaves in the first accumulator. -/
def firstAcc0 (c : Dev nD) (t : Fin cfg0.N) (hc0 : isFirst (grid0.coords t)) (hc1 : ¬isLast (grid0.coords t))
    (x0 : Vec F S128x128 .f32) (x1 : Vec F S8192x128 .f32) : Vec F S1x1 .f32 :=
  acc0V.read (Elt F) (acc0V.writes (Elt F) acc0V.junk (firstAt c t hc0 hc1 x0 x1).1)
/-- What the first point leaves in the second accumulator. -/
def firstAcc1 (c : Dev nD) (t : Fin cfg0.N) (hc0 : isFirst (grid0.coords t)) (hc1 : ¬isLast (grid0.coords t))
    (x0 : Vec F S128x128 .f32) (x1 : Vec F S8192x128 .f32) : Vec F S1x1 .f32 :=
  acc1V.read (Elt F) (acc1V.writes (Elt F) acc1V.junk (firstAt c t hc0 hc1 x0 x1).2.1)

theorem midCover0 (c : Dev nD) (t : Fin cfg0.N) (hc0 : ¬isFirst (grid0.coords t)) (hc1 : ¬isLast (grid0.coords t))
    (x0 : Vec F S128x128 .f32) (x1 : Vec F S8192x128 .f32) (xs0 xs1 : Vec F S1x1 .f32) (y : S1x1.Idx) :
    ∃ pc ∈ (midAt c t hc0 hc1 x0 x1 xs0 xs1).1, y ∈ pc.1.set :=
  View.cover_of_tiledL (midAt c t hc0 hc1 x0 x1 xs0 xs1).1 S1x1.size (by sl_kernel_rfl) y
theorem midCover1 (c : Dev nD) (t : Fin cfg0.N) (hc0 : ¬isFirst (grid0.coords t)) (hc1 : ¬isLast (grid0.coords t))
    (x0 : Vec F S128x128 .f32) (x1 : Vec F S8192x128 .f32) (xs0 xs1 : Vec F S1x1 .f32) (y : S1x1.Idx) :
    ∃ pc ∈ (midAt c t hc0 hc1 x0 x1 xs0 xs1).2.1, y ∈ pc.1.set :=
  View.cover_of_tiledL (midAt c t hc0 hc1 x0 x1 xs0 xs1).2.1 S1x1.size (by sl_kernel_rfl) y
/-- What a middle point leaves in the first accumulator. -/
def midAcc0 (c : Dev nD) (t : Fin cfg0.N) (hc0 : ¬isFirst (grid0.coords t)) (hc1 : ¬isLast (grid0.coords t))
    (x0 : Vec F S128x128 .f32) (x1 : Vec F S8192x128 .f32) (xs0 xs1 : Vec F S1x1 .f32) : Vec F S1x1 .f32 :=
  acc0V.read (Elt F) (acc0V.writes (Elt F) acc0V.junk (midAt c t hc0 hc1 x0 x1 xs0 xs1).1)
/-- What a middle point leaves in the second accumulator. -/
def midAcc1 (c : Dev nD) (t : Fin cfg0.N) (hc0 : ¬isFirst (grid0.coords t)) (hc1 : ¬isLast (grid0.coords t))
    (x0 : Vec F S128x128 .f32) (x1 : Vec F S8192x128 .f32) (xs0 xs1 : Vec F S1x1 .f32) : Vec F S1x1 .f32 :=
  acc1V.read (Elt F) (acc1V.writes (Elt F) acc1V.junk (midAt c t hc0 hc1 x0 x1 xs0 xs1).2.1)

theorem lastCoverOut (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) (y : S1x1.Idx) :
    ∃ pc ∈ (lastAt c t hc0 hc1 x0 x1 xs0 xs1).1, y ∈ pc.1.set :=
  View.cover_of_tiledL (lastAt c t hc0 hc1 x0 x1 xs0 xs1).1 S1x1.size (by sl_kernel_rfl) y
theorem lastCover0 (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) (y : S1x1.Idx) :
    ∃ pc ∈ (lastAt c t hc0 hc1 x0 x1 xs0 xs1).2.1, y ∈ pc.1.set :=
  View.cover_of_tiledL (lastAt c t hc0 hc1 x0 x1 xs0 xs1).2.1 S1x1.size (by sl_kernel_rfl) y
theorem lastCover1 (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) (y : S1x1.Idx) :
    ∃ pc ∈ (lastAt c t hc0 hc1 x0 x1 xs0 xs1).2.2.1, y ∈ pc.1.set :=
  View.cover_of_tiledL (lastAt c t hc0 hc1 x0 x1 xs0 xs1).2.2.1 S1x1.size (by sl_kernel_rfl) y
/-- What the last point leaves in the output's block. -/
def lastOut (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) : Vec F S1x1 .f32 :=
  outV.read (Elt F) (outV.writes (Elt F) outV.junk (lastAt c t hc0 hc1 x0 x1 xs0 xs1).1)
/-- What the last point leaves in the first accumulator. -/
def lastAcc0 (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) : Vec F S1x1 .f32 :=
  acc0V.read (Elt F) (acc0V.writes (Elt F) acc0V.junk (lastAt c t hc0 hc1 x0 x1 xs0 xs1).2.1)
/-- What the last point leaves in the second accumulator. -/
def lastAcc1 (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) : Vec F S1x1 .f32 :=
  acc1V.read (Elt F) (acc1V.writes (Elt F) acc1V.junk (lastAt c t hc0 hc1 x0 x1 xs0 xs1).2.2.1)

/-! ## The accumulation over the grid -/

/-- The output's block where nothing has stored into it: contents no one reads. -/
def noOut : Vec F S1x1 .f32 := outV.read (Elt F) outV.junk

/-- What the output's block and the two accumulators hold after the body at point n: the case the point is in, run
    at the point's memrefs and input blocks, over what point n − 1 left in the accumulators. -/
def outsAt (c : Dev nD) : (n : ℕ) → n < cfg0.N → Vec F S1x1 .f32 × Vec F S1x1 .f32 × Vec F S1x1 .f32
  | 0, hn =>
    (noOut,
     firstAcc0 c ⟨0, hn⟩ ((isFirst_iff ⟨0, hn⟩).mpr rfl) (fun h => absurd ((isLast_iff ⟨0, hn⟩).mp h) (show ¬((0 : ℕ) = 63) by decide)) (iblk m c 0 ⟨0, hn⟩) (iblk m c 1 ⟨0, hn⟩),
     firstAcc1 c ⟨0, hn⟩ ((isFirst_iff ⟨0, hn⟩).mpr rfl) (fun h => absurd ((isLast_iff ⟨0, hn⟩).mp h) (show ¬((0 : ℕ) = 63) by decide)) (iblk m c 0 ⟨0, hn⟩) (iblk m c 1 ⟨0, hn⟩))
  | n + 1, hn =>
    if h1 : n + 1 = 63 then
      (lastOut c ⟨n + 1, hn⟩ (fun h => Nat.succ_ne_zero n ((isFirst_iff ⟨n + 1, hn⟩).mp h)) ((isLast_iff ⟨n + 1, hn⟩).mpr h1) (iblk m c 0 ⟨n + 1, hn⟩) (iblk m c 1 ⟨n + 1, hn⟩) (outsAt c n (Nat.lt_of_succ_lt hn)).2.1 (outsAt c n (Nat.lt_of_succ_lt hn)).2.2,
       lastAcc0 c ⟨n + 1, hn⟩ (fun h => Nat.succ_ne_zero n ((isFirst_iff ⟨n + 1, hn⟩).mp h)) ((isLast_iff ⟨n + 1, hn⟩).mpr h1) (iblk m c 0 ⟨n + 1, hn⟩) (iblk m c 1 ⟨n + 1, hn⟩) (outsAt c n (Nat.lt_of_succ_lt hn)).2.1 (outsAt c n (Nat.lt_of_succ_lt hn)).2.2,
       lastAcc1 c ⟨n + 1, hn⟩ (fun h => Nat.succ_ne_zero n ((isFirst_iff ⟨n + 1, hn⟩).mp h)) ((isLast_iff ⟨n + 1, hn⟩).mpr h1) (iblk m c 0 ⟨n + 1, hn⟩) (iblk m c 1 ⟨n + 1, hn⟩) (outsAt c n (Nat.lt_of_succ_lt hn)).2.1 (outsAt c n (Nat.lt_of_succ_lt hn)).2.2)
    else
      (noOut,
       midAcc0 c ⟨n + 1, hn⟩ (fun h => Nat.succ_ne_zero n ((isFirst_iff ⟨n + 1, hn⟩).mp h)) (fun h => h1 ((isLast_iff ⟨n + 1, hn⟩).mp h)) (iblk m c 0 ⟨n + 1, hn⟩) (iblk m c 1 ⟨n + 1, hn⟩) (outsAt c n (Nat.lt_of_succ_lt hn)).2.1 (outsAt c n (Nat.lt_of_succ_lt hn)).2.2,
       midAcc1 c ⟨n + 1, hn⟩ (fun h => Nat.succ_ne_zero n ((isFirst_iff ⟨n + 1, hn⟩).mp h)) (fun h => h1 ((isLast_iff ⟨n + 1, hn⟩).mp h)) (iblk m c 0 ⟨n + 1, hn⟩) (iblk m c 1 ⟨n + 1, hn⟩) (outsAt c n (Nat.lt_of_succ_lt hn)).2.1 (outsAt c n (Nat.lt_of_succ_lt hn)).2.2)

/-- What the point before t left (t not the first). -/
abbrev prevAt (c : Dev nD) (t : Fin cfg0.N) : Vec F S1x1 .f32 × Vec F S1x1 .f32 × Vec F S1x1 .f32 :=
  outsAt m c (t.val - 1) (Nat.lt_of_le_of_lt (Nat.sub_le _ _) t.isLt)

/-- `outsAt` at the first point. -/
theorem outsAt_first (c : Dev nD) (t : Fin cfg0.N) (h0 : t.val = 0) :
    outsAt m c t.val t.isLt = (noOut,
      firstAcc0 c t ((isFirst_iff t).mpr h0) (fun h => by have := (isLast_iff t).mp h; omega) (iblk m c 0 t) (iblk m c 1 t),
      firstAcc1 c t ((isFirst_iff t).mpr h0) (fun h => by have := (isLast_iff t).mp h; omega) (iblk m c 0 t) (iblk m c 1 t)) := by
  obtain ⟨n, hn⟩ := t
  cases n with
  | zero => rfl
  | succ n => exact absurd h0 (Nat.succ_ne_zero n)

/-- `outsAt` at a middle point, over what the point before left. -/
theorem outsAt_mid (c : Dev nD) (t : Fin cfg0.N) (h0 : ¬t.val = 0) (h1 : ¬t.val = 63) :
    outsAt m c t.val t.isLt = (noOut,
      midAcc0 c t (fun h => h0 ((isFirst_iff t).mp h)) (fun h => h1 ((isLast_iff t).mp h)) (iblk m c 0 t) (iblk m c 1 t) (prevAt m c t).2.1 (prevAt m c t).2.2,
      midAcc1 c t (fun h => h0 ((isFirst_iff t).mp h)) (fun h => h1 ((isLast_iff t).mp h)) (iblk m c 0 t) (iblk m c 1 t) (prevAt m c t).2.1 (prevAt m c t).2.2) := by
  obtain ⟨n, hn⟩ := t
  cases n with
  | zero => exact absurd rfl h0
  | succ n => exact (dif_neg h1).trans rfl

/-- `outsAt` at the last point, over what the point before left. -/
theorem outsAt_last (c : Dev nD) (t : Fin cfg0.N) (h0 : ¬t.val = 0) (h1 : t.val = 63) :
    outsAt m c t.val t.isLt = (
      lastOut c t (fun h => h0 ((isFirst_iff t).mp h)) ((isLast_iff t).mpr h1) (iblk m c 0 t) (iblk m c 1 t) (prevAt m c t).2.1 (prevAt m c t).2.2,
      lastAcc0 c t (fun h => h0 ((isFirst_iff t).mp h)) ((isLast_iff t).mpr h1) (iblk m c 0 t) (iblk m c 1 t) (prevAt m c t).2.1 (prevAt m c t).2.2,
      lastAcc1 c t (fun h => h0 ((isFirst_iff t).mp h)) ((isLast_iff t).mpr h1) (iblk m c 0 t) (iblk m c 1 t) (prevAt m c t).2.1 (prevAt m c t).2.2) := by
  obtain ⟨n, hn⟩ := t
  cases n with
  | zero => exact absurd rfl h0
  | succ n => exact (dif_pos h1).trans rfl

/-! ## The region's invariant -/

/-- Before point n: before the first point the class invariant (the accumulators at anything); afterwards the two
    accumulators at what point n − 1 left, and the generator register at some state. -/
def PhiS (c : Dev nD) : (n : ℕ) → n ≤ cfg0.N → sProp 𝕄
  | 0, _ => Pipeline.ΦA spec0 c
  | n + 1, hn => iprop(iprop(owns (c : Thread nD τ) acc0M fullShare ((outsAt m c n hn).2.1) ∗ owns (c : Thread nD τ) acc1M fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) acc0M fullShare ((outsAt m c n hn).2.1) ∗ owns (c : Thread nD τ) acc1M fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) acc0M fullShare ((outsAt m c (n - 1) (by omega)).2.1) ∗ owns (c : Thread nD τ) acc1M fullShare ((outsAt m c (n - 1) (by omega)).2.2)) ∗ (∃ r, prngReg c r)) := by
  cases n with
  | zero => exact absurd rfl hz
  | succ n => rfl

/-! ## The proof data -/

/-- The proof data of the one pipeline on core c: the arrays at the launch contents; after the body at point t each
    input's buffer at its block and the output's at `outsAt`; the invariant `PhiS`; the two input windows lent the two
    halves of their common array; nothing owed. -/
def dats (_ : Fin 1) (c : Dev nD) : Dat τ (Elt F) Unit ℕ (UR sig nD τ) ℕ cfg0 c where
  A w := m ((c.tc : Thread nD τ).loc (Pipeline.arrRef spec0 w))
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = m ((c.tc : Thread nD τ).loc (Pipeline.arrRef spec0 w)) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]

/-- Each input window's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

end Cert.KernelIdeal.Hand

end
-- ==== Proof.KI.Body.lean ====
/-
  The body obligation: at every grid point, from the region's invariant and the windows' current buffers as the
  pipeline hands them, the kernel's body runs to the invariant at the next point and the buffers as the proof data
  say it leaves them.

  The point is the first, a middle one or the last; the closed forms of the two branch conditions say which, and that
  case's run applies: the input buffers hold their blocks, the accumulators hold what the point before left (anything at
  the first point), the output's buffer is handed back untouched except at the last point, where it takes the result.
-/
import proofs.«137138_j82729660056292_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (st0 t) fullShare (iblk m c 0 t) := by
  unfold Dat.leavesExact; rw [live0 t, after0]
theorem leaves1 (c : Dev nD) (t : Fin cfg0.N) :
    (dats m 0 c).leavesExact 1 t = owns (c : Thread nD τ) (st1 t) fullShare (iblk m c 1 t) := by
  unfold Dat.leavesExact; rw [live1 t, after1]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 64 := lt_of_lt_of_eq t.isLt (show cfg0.N = 64 from N_0)
  by_cases h0 : t.val = 0
  · -- the first point
    have h1 : ¬t.val = 63 := by omega
    have hl : ¬isLast (grid0.coords t) := fun h => h1 ((isLast_iff t).mp h)
    rw [Dat.leavesExact_idle (dats m 0 c) 2 t (idle2 t hl) (noFlush2 t hl)]
    rw [outsAt_first m c t h0]
    unfold firstAcc0 firstAcc1; (try dsimp only)
    rw [PhiS_castSucc m c t, PhiS_zero m c _ _ h0, PhiA_eq]
    iintro ⟨⟨⟨HS0, HS1⟩, Hg⟩, Ho, ⟨%d0, H0⟩, ⟨%d1, H1⟩, ⟨%d2, H2⟩⟩
    iapply ((firstAt c t ((isFirst_iff t).mpr h0) (fun h => by have := (isLast_iff t).mp h; omega) (iblk m c 0 t) (iblk m c 1 t)).2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (firstCover0 c t _ _ _ _)
        · unfold owns; iexists _; isplitr
          swap; · iexact HS1
          ipureintro; exact View.read_writes_of_cover _ _ _ _ _ (firstCover1 c t _ _ _ _)
      iexact Hg
    isplitl [Ho]; · iexact Ho
    isplitl [H0]; · iexact H0
    isplitl [H1]; · iexact H1
    iexists _; iexact H2
  · by_cases h1 : t.val = 63
    · -- the last point
      have hl : isLast (grid0.coords t) := (isLast_iff t).mpr h1
      rw [show (dats m 0 c).leavesExact 2 t = owns (c : Thread nD τ) (st2 t) fullShare ((dats m 0 c).after 2 t) from by
        unfold Dat.leavesExact; rw [live2 t hl], after2]
      rw [outsAt_last m c t h0 h1]
      unfold lastOut lastAcc0 lastAcc1; (try dsimp only)
      rw [PhiS_castSucc m c t, PhiS_pos m c _ _ h0]
      iintro ⟨⟨⟨HS0, HS1⟩, Hg⟩, Ho, ⟨%d0, H0⟩, ⟨%d1, H1⟩, ⟨%d2, H2⟩⟩
      iapply ((lastAt c t (fun h => h0 ((isFirst_iff t).mp h)) hl (iblk m c 0 t) (iblk m c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (lastCover0 c t _ _ _ _ _ _)
          · unfold owns; iexists _; isplitr
            swap; · iexact HS1
            ipureintro; exact View.read_writes_of_cover _ _ _ _ _ (lastCover1 c t _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (lastCoverOut c t _ _ _ _ _ _)
    · -- a middle point
      have hl : ¬isLast (grid0.coords t) := fun h => h1 ((isLast_iff t).mp h)
      rw [Dat.leavesExact_idle (dats m 0 c) 2 t (idle2 t hl) (noFlush2 t hl)]
      rw [outsAt_mid m c t h0 h1]
      unfold midAcc0 midAcc1; (try dsimp only)
      rw [PhiS_castSucc m c t, PhiS_pos m c _ _ h0]
      iintro ⟨⟨⟨HS0, HS1⟩, Hg⟩, Ho, ⟨%d0, H0⟩, ⟨%d1, H1⟩, ⟨%d2, H2⟩⟩
      iapply ((midAt c t (fun h => h0 ((isFirst_iff t).mp h)) hl (iblk m c 0 t) (iblk m c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (midCover0 c t _ _ _ _ _ _)
          · unfold owns; iexists _; isplitr
            swap; · iexact HS1
            ipureintro; exact View.read_writes_of_cover _ _ _ _ _ (midCover1 c t _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the accumulators' contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨⟨HS0, HS1⟩, Hg⟩
  isplitl [HS0 HS1]
  · isplitl [HS0]
    · iexists _; iexact HS0
    · iexists _; iexact HS1
  iexact Hg

end Cert.KernelIdeal.Hand

end
-- ==== Proof.KI.Launch.lean ====
/-
  The launch of the one kernel region when two of its input windows read the same array, followed by the host
  operation after the region.

  The array both input windows read is held whole by the program; each of the two windows is lent one half of it
  (the left and the right half share), which is enough to fetch from it and never to write it. The output window's
  array is held whole. After the region each window keeps its half, untouched (an input array is never written back,
  so both halves still hold the entry contents), and the one host operation after the region (a reshape of the region's
  result) runs on the region's result array, as the last write-back left it, and on the program's result buffer.
-/
import proofs.«137138_j82729660056292_1_alg».proof.Proof.Gen.KernelIdeal.Launch
import proofs.«137138_j82729660056292_1_alg».proof.Proof.Gen.KernelIdeal.Points
import Idealize.ShloMosaic.Lib.Pipeline.FrameSuffix
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffer contents at the region's exit: the launch contents, with the region's result array at what the
    last write-back left in it. -/
def exitVal (dats : (p : Fin 1) → (c : Dev nD) → Dat τ (Elt F) Unit ℕ (UR sig nD τ) ℕ (cfgs p) c) (c : Dev nD) :
    Valuation τ sig (Elt F) :=
  Function.update (fun b => m (c, b)) (Proc.devRef .tc main_call0_v0) ((dats 0 c).arrAt 2 cfg0.N)

/-- The shares the pipeline holds its three arrays at: the two input windows the two halves of the full share, the
    output window the full share. -/
theorem share_eq (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right) (c : Dev nD) :
    (dats 0 c).share 0 = fullShare.left ∧ (dats 0 c).share 1 = fullShare.right ∧ (dats 0 c).share 2 = fullShare := by
  refine ⟨?_, ?_, ?_⟩
  · unfold Dat.share; exact (if_neg (by decide)).trans (hq0 c)
  · unfold Dat.share; exact (if_neg (by decide)).trans (hq1 c)
  · unfold Dat.share; exact if_pos (by decide)

/-- The buffers behind the windows' arrays are the argument array and the region's result array. -/
theorem arrRef_image : (Finset.univ.image (Pipeline.arrRef spec0) : Finset (Ref sig .tc)) = {main_arg0, main_call0_v0} := by decide

/-- AT ENTRY. The argument array, held whole, is split into its two half shares, one for each input window; the
    result array goes whole to the output window. -/
theorem hsplit_c (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hA0 : ∀ c, (dats 0 c).A 0 = m ((c.tc : Thread nD τ).loc main_arg0))
    (hA1 : ∀ c, (dats 0 c).A 1 = m ((c.tc : Thread nD τ).loc main_arg0))
    (hA2 : ∀ c, (dats 0 c).A 2 = m ((c.tc : Thread nD τ).loc main_call0_v0)) (c : Dev nD) :
    (Pipeline.arrBufs spec0 c (fun b => m ((c.tc : Thread nD τ).loc b)) : sProp 𝕄)
      ⊢ (dats 0 c).arrays ((dats 0 c).arrAt · 0) := by
  obtain ⟨hs0, hs1, hs2⟩ := share_eq dats hq0 hq1 c
  unfold Pipeline.arrBufs Dat.arrays
  rw [arrRef_image, bigSep_W0, bigSep_insert (by decide), bigSep_singleton]
  rw [hs0, hs1, hs2, (arr_whole0 0).set_eq_univ, (arr_whole0 2).set_eq_univ]
  show iprop((((c.tc : Thread nD τ).loc main_arg0) ↦{fullShare} m ((c.tc : Thread nD τ).loc main_arg0))
        ∗ (((c.tc : Thread nD τ).loc main_call0_v0) ↦{fullShare} m ((c.tc : Thread nD τ).loc main_call0_v0)))
      ⊢ iprop((((c.tc : Thread nD τ).loc main_arg0) ↦{fullShare.left} (dats 0 c).A 0)
        ∗ (((c.tc : Thread nD τ).loc main_arg0) ↦{fullShare.right} (dats 0 c).A 1)
        ∗ (((c.tc : Thread nD τ).loc main_call0_v0) ↦{fullShare} (dats 0 c).A 2))
  rw [hA0 c, hA1 c, hA2 c]
  iintro ⟨Ha, Hr⟩
  ihave H := (pointsTo_share (PosShare.mem_left_op_right fullShare)).1 $$ Ha
  icases H with ⟨H0, H1⟩
  isplitl [H0]
  · iexact H0
  isplitl [H1]
  · iexact H1
  iexact Hr

/-- The region's exit contents at the region's result array: what the last write-back left; -/
theorem exitVal_call0 (dats : (p : Fin 1) → (c : Dev nD) → Dat τ (Elt F) Unit ℕ (UR sig nD τ) ℕ (cfgs p) c) (c : Dev nD) :
    exitVal m dats c (Proc.devRef .tc main_call0_v0) = (dats 0 c).arrAt 2 cfg0.N := by
  unfold exitVal; exact Function.update_self ..

/-- and at the program's result buffer: the launch contents. -/
theorem exitVal_v0 (dats : (p : Fin 1) → (c : Dev nD) → Dat τ (Elt F) Unit ℕ (UR sig nD τ) ℕ (cfgs p) c) (c : Dev nD) :
    exitVal m dats c (Proc.devRef .tc main_v0) = m ((c.tc : Thread nD τ).loc main_v0) := by
  unfold exitVal
  exact Function.update_of_ne (StableHlo.devRef_ne_of_ne (τ := τ) (by decide)) ..

/-- The two buffers the host operation after the region touches: the region's result array and the program's result. -/
abbrev tailS : Finset (DevRef τ sig) := {Proc.devRef .tc main_call0_v0, Proc.devRef .tc main_v0}

/-- Holding those two buffers at a valuation is holding each. -/
theorem held_tailS (c : Dev nD) (W : Valuation τ sig (Elt F)) :
    (StableHlo.held (c.tc : Thread nD τ) tailS W : sProp 𝕄)
      = iprop((((c.tc : Thread nD τ).loc main_call0_v0) ↦{fullShare} W (Proc.devRef .tc main_call0_v0))
          ∗ (((c.tc : Thread nD τ).loc main_v0) ↦{fullShare} W (Proc.devRef .tc main_v0))) := by
  unfold StableHlo.held tailS
  rw [bigSep_insert (by rw [Finset.mem_singleton]; exact StableHlo.devRef_ne_of_ne (τ := τ) (by decide)), bigSep_singleton]
  rfl

/-- The host operation after the region keeps within those two buffers, -/
theorem hostOps1_tailS : ∀ ops ∈ ([hostOps1] : List (List (HloOp τ sig (Elt F)))), ∀ op ∈ ops, op.bufs ⊆ tailS := by
  intro ops hops op hop
  simp only [List.mem_cons, List.mem_nil_iff, or_false] at hops
  subst hops
  simp only [List.mem_cons, List.mem_nil_iff, or_false] at hop
  subst hop
  exact subset_refl _

/-- allocates nothing, -/
theorem hostOps1_fresh : ∀ ops ∈ ([hostOps1] : List (List (HloOp τ sig (Elt F)))), ∀ op ∈ ops, op.fresh = ∅ := by
  intro ops hops op hop
  simp only [List.mem_cons, List.mem_nil_iff, or_false] at hops
  subst hops
  simp only [List.mem_cons, List.mem_nil_iff, or_false] at hop
  subst hop
  rfl

/-- and leaves the region's result array as it found it: it writes the program's result only. -/
theorem after_call0 (W : Valuation τ sig (Elt F)) :
    StableHlo.after (hostOps1 (F := F)) W (Proc.devRef .tc main_call0_v0) = W (Proc.devRef .tc main_call0_v0) :=
  StableHlo.after_of_forall_not_mem _ _ fun op hop => by
    simp only [List.mem_cons, List.mem_nil_iff, or_false] at hop
    subst hop
    rw [StableHlo.reshape_writes, Finset.mem_singleton]
    exact StableHlo.devRef_ne_of_ne (τ := τ) (by decide)

set_option backward.isDefEq.respectTransparency.types false in
/-- AFTER THE REGION. The two input windows keep their halves of the argument array untouched; the reshape runs on the
    region's result array, as the last write-back left it, and on the program's result buffer, and hands the first
    back unchanged and the second at what it computes from the exit contents. -/
theorem htail_c (dats : (p : Fin 1) → (c : Dev nD) → Dat τ (Elt F) Unit ℕ (UR sig nD τ) ℕ (cfgs p) c) (c : Dev nD) (Q' : PUnit → sProp 𝕄) :
    iprop((iprop((dats 0 c).arrays ((dats 0 c).arrAt · cfg0.N)
              ∗ (((c.tc : Thread nD τ).loc main_v0) ↦{fullShare} StableHlo.after (hostOps1 (F := F)) (exitVal m dats c) (Proc.devRef .tc main_v0))) -∗ Q' ⟨⟩)
        ∗ boundary (c.tc : Thread nD τ) ∗ (dats 0 c).arrays ((dats 0 c).arrAt · cfg0.N)
        ∗ (((c.tc : Thread nD τ).loc main_v0) ↦{fullShare} m ((c.tc : Thread nD τ).loc main_v0)))
      ⊢ wp frame (wpE (Pipeline.defs (fun p => (cfgs p).toPCfg) (defs₀ (F := F))) (Variants.lift Variants.none) (c.tc : Thread nD τ) none)
          Set.univ (Pipeline.chain [StableHlo.seq hostOps1]) Q' := by
  have hs2 : (dats 0 c).share 2 = fullShare := by unfold Dat.share; exact if_pos (by decide)
  unfold Dat.arrays
  rw [bigSep_W0, hs2, (arr_whole0 2).set_eq_univ]
  have hpost : (StableHlo.held (c.tc : Thread nD τ) tailS
        (StableHlo.after (([hostOps1] : List (List (HloOp τ sig (Elt F)))).flatten) (exitVal m dats c)) : sProp 𝕄)
      = iprop((((c.tc : Thread nD τ).loc main_call0_v0) ↦{fullShare} (dats 0 c).arrAt 2 cfg0.N)
          ∗ (((c.tc : Thread nD τ).loc main_v0) ↦{fullShare} StableHlo.after (hostOps1 (F := F)) (exitVal m dats c) (Proc.devRef .tc main_v0))) := by
    rw [show (([hostOps1] : List (List (HloOp τ sig (Elt F)))).flatten) = hostOps1 from rfl, held_tailS, after_call0, exitVal_call0]
  show _ ⊢ wp frame _ Set.univ (Pipeline.chain (([hostOps1] : List (List (HloOp τ sig (Elt F)))).map StableHlo.seq ++ [])) Q'
  iintro ⟨Hk, Hb, ⟨H0, H1, H2⟩, Hz⟩
  ihave Hheld : (StableHlo.held (c.tc : Thread nD τ) tailS (exitVal m dats c) : sProp 𝕄) $$ [H2 Hz]
  · rw [held_tailS, exitVal_call0, exitVal_v0]
    isplitl [H2]
    · iexact H2
    iexact Hz
  iapply (Pipeline.wp_seqs_then (fun p => (cfgs p).toPCfg) (defs₀ (F := F)) Variants.none c tailS [] [hostOps1]
    hostOps1_tailS hostOps1_fresh (exitVal m dats c)) $$ [Hb Hheld]
  · isplitl [Hb]
    · iexact Hb
    iexact Hheld
  iintro ⟨Hb, Hheld⟩
  rw [Pipeline.chain_nil, wp_pure]
  imodintro
  iapply Hk
  ihave Hheld := (Entails.of_eq hpost) $$ Hheld
  icases Hheld with ⟨H2, Hz⟩
  isplitr [Hz]
  · isplitl [H0]
    · iexact H0
    isplitl [H1]
    · iexact H1
    iexact H2
  iexact Hz

/-- THE RUN. For any proof data of the one pipeline that lends the two input windows the two halves of their common
    array, owes nothing, starts from the launch contents and enters and leaves the class invariant: every weakly fair
    execution of @main terminates, the argument array ends unchanged, and the result holds what the host operation
    after the region computes from the region's result array. -/
theorem run_shared (dats : (p : Fin 1) → (c : Dev nD) → Dat τ (Elt F) Unit ℕ (UR sig nD τ) ℕ (cfgs p) c)
    (hbody : ∀ c, BodyObligationLoose (dats 0 c) (defs₀ (F := F)) Variants.none () Set.univ)
    (hq0 : ∀ c, (dats 0 c).q 0 = fullShare.left) (hq1 : ∀ c, (dats 0 c).q 1 = fullShare.right)
    (howed : ∀ c t, (dats 0 c).owed t = 0)
    (hA0 : ∀ c, (dats 0 c).A 0 = m ((c.tc : Thread nD τ).loc main_arg0))
    (hA1 : ∀ c, (dats 0 c).A 1 = m ((c.tc : Thread nD τ).loc main_arg0))
    (hA2 : ∀ c, (dats 0 c).A 2 = m ((c.tc : Thread nD τ).loc main_call0_v0))
    (hin : ∀ c, Pipeline.ΦA spec0 c ⊢ (dats 0 c).Φ 0)
    (hout : ∀ c, (dats 0 c).Φ (Fin.last cfg0.N) ⊢ Pipeline.ΦA spec0 c) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v0)
          = StableHlo.after (hostOps1 (F := F)) (exitVal m dats c) (Proc.devRef .tc main_v0)) := by
  classical
  unfold defs
  refine Pipeline.θ_run_region_pf_tail (fun p => (cfgs p).toPCfg) (fun p => (cfgs p).toPCfg_adm) dats () cellOf_inj 0 winFacts₀0
    (Pipeline.OwnSemFacts.none _) (Pipeline.PreFacts.none _) emb₁ defs₀ Variants.none m ρ main
    (fun _ => Pipeline.chain [StableHlo.seq hostOps1]) hbody block_pos0 arr_whole0 stage_whole0 howed
    (G := fun _ => iprop(emp))
    (u₀ := initOf (Pipeline.cells cfgs cellOf_inj) (Pipeline.launchToks cfgs cellOf_inj))
    (hu₀ := ?hu)
    (V := fun c b => m ((c.tc : Thread nD τ).loc b)) (hmain := ?hmain) (hsplit := ?hsplit)
    (hpf := fun _ k => k.elim0)
    (X := fun c => iprop(∃ r, prngReg c r)) (Y := fun c => iprop(∃ r, prngReg c r))
    (Z := fun c => iprop(((c.tc : Thread nD τ).loc main_v0) ↦{fullShare} m ((c.tc : Thread nD τ).loc main_v0)))
    (Z' := fun c => iprop(((c.tc : Thread nD τ).loc main_v0) ↦{fullShare} StableHlo.after (hostOps1 (F := F)) (exitVal m dats c) (Proc.devRef .tc main_v0)))
    (hX := ?hX) (hin := ?hin) (hout := ?hout) (htail := ?htail)
    (QY := fun c s => s.mem ((c.tc : Thread nD τ).loc main_v0) = StableHlo.after (hostOps1 (F := F)) (exitVal m dats c) (Proc.devRef .tc main_v0))
    (hY := ?hY) (hQ := ?hQ)
  case hu =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hX =>
    intro c
    rw [Pipeline.unscopedRestP_none]
    rw [show Pipeline.unscopedRest (Ix := Unit) (Name := ℕ) (U := UR sig nD τ) (Lvl := ℕ) (Pipeline.pin (fun p => (cfgs p).toPCfg (Val := Elt F)) (fun p => (cfgs p).toPCfg_adm) 0).spec c (fun b => m ((c.tc : Thread nD τ).loc b))
        = iprop((((c.tc : Thread nD τ).loc main_v0) ↦{fullShare} m ((c.tc : Thread nD τ).loc main_v0))) from unscopedRest0_eq c _]
    iintro ⟨HU, -, -, -, Hp, -⟩; imodintro
    isplitl [Hp]
    · iexists _; iexact Hp
    iexact HU
  case hin =>
    intro c
    refine (show _ ⊢ Pipeline.ΦA spec0 c from ?_).trans (hin c)
    unfold Pipeline.ΦA
    iintro ⟨Hp, -, Hr⟩
    isplitl [Hr] <;> iassumption
  case hout =>
    intro c
    refine (hout c).trans ?_
    rw [Pipeline.ownSems0_none]; unfold Pipeline.ΦA
    iintro ⟨Hr, Hp⟩
    isplitl [Hp]
    · iexact Hp
    isplitr
    · iempintro
    iexact Hr
  case hmain =>
    exact Pipeline.hmain_around cfgs 0 defs₀ Variants.none m main [] [hostOps1] (by simp only [List.Forall])
      (by simp only [List.Forall]) main_chain
  case hsplit => exact fun c => hsplit_c m dats hq0 hq1 hA0 hA1 hA2 c
  case htail => exact fun c Q' => htail_c m dats c Q'
  case hY =>
    intro c s'
    iintro ⟨-, HU, HSI⟩
    imodintro
    icombine HSI HU gives %h
    isplitr
    · ipureintro
      exact Buf.eq_of_forall_mem_univ h
    · iexact HSI
  case hQ =>
    intro s h c
    refine ⟨?_, (h c).2.2⟩
    have h0 := (h c).1 0
    rw [(dats 0 c).arrAt_in 0 rfl _, hA0 c] at h0
    exact h0

end Cert.KernelIdeal.Hand

end
-- ==== Proof.KI.Run.lean ====
/-
  The kernel program's run: the launch with the proof data and the body obligation; the frame; and, over the extended
  reals, the result.
-/
import proofs.«137138_j82729660056292_1_alg».proof.Proof.KI.Body
import proofs.«137138_j82729660056292_1_alg».proof.Proof.KI.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates; the argument array ends unchanged and the scalar result holds
    what the host operation after the region computes from the region's result array. -/
theorem run_main : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v0)
          = StableHlo.after (hostOps1 (F := F)) (exitVal m (dats m) c) (Proc.devRef .tc main_v0)) :=
  run_shared m ρ (dats m) (fun c => (body_obligation m c).loose) (fun _ => rfl) (fun _ => rfl) (fun _ _ => rfl)
    (fun c => A_eq m c 0) (fun c => A_eq m c 1) (fun c => A_eq m c 2) (hin m) (hout m)

/-- THE FRAME: the program runs to the end, faults nowhere, and leaves its argument array unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run (defs (F := F)) _ _).mono (fun _ h c => (h c).1) (run_main m ρ)

end Cert.KernelIdeal.Hand

end
-- ==== Proof.KI.Exit.lean ====
/-
  The region's result array after the last write-back, and the host operation after the region.

  The output's window is written back once, after the last point, and its block is the whole one-by-one array: after
  the region the array holds what the last point left in the block. The reshape after the region reads that one entry
  into the scalar result.
-/
import proofs.«137138_j82729660056292_1_alg».proof.Proof.KI.Data
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The grid's last point is below the number of points. -/
theorem last_lt : 63 < cfg0.N := lt_of_lt_of_eq (by decide : 63 < 64) (show cfg0.N = 64 from N_0).symm

/-- The output's block starts at offset zero on both axes of its array, at every point. -/
theorem out_off (t : Fin cfg0.N) :
    (fun a => win0_2.index t a * main_call0_v0.ty.shape.size a) = fun _ => 0 :=
  funext fun a => by fin_cases a <;> rfl

/-- The one write-back, at the last point, writes what that point left in the output's block: the block at offset
    zero with the array's own sizes is the whole array, so reading the array-sized contents through it reads them. -/
theorem flushed_out (c : Dev nD) (t : Fin cfg0.N) (hf : (cfg0.win 2).flush t = true) :
    (dats m 0 c).flushed 2 t = ((cfg0.win 2).blk t).view.read (Elt F) (outsAt m c 63 last_lt).1 := by
  have hN : cfg0.N = 64 := N_0
  have ht : t.val = 63 := by
    have h := (flush0_2 t).mp hf
    have hlt := t.isLt
    omega
  obtain rfl : t = ⟨63, last_lt⟩ := Fin.ext ht
  show (cfg0.win 2).cut (grid0.coords _) ((dats m 0 c).after 2 _) = _
  rw [after2]
  exact (Memref.read_access_unit_zero (Elt F) main_call0_v0 (out_off _)
    (fun a => by rw [congrFun (out_off _) a]; simp) _).symm

/-- After the region the result array holds what the last point left in the output's block. -/
theorem arrAt_out (c : Dev nD) :
    ((dats m 0 c).arrAt 2 cfg0.N : Vec F S1x1 .f32)
      = (outsAt m c 63 (lt_of_lt_of_eq (by decide : 63 < 64) (show cfg0.N = 64 from N_0).symm)).1 := by
  refine (dats m 0 c).arrAt_eq_of_cover 2 _ (flushed_out m c) fun i => ⟨⟨63, last_lt⟩, (flush0_2 _).mpr rfl, ?_⟩
  -- the last point's block is the rectangle at offset zero of the array's own sizes: every index is in it
  show i ∈ ((View.whole main_call0_v0).slice (win0_2.rect ⟨63, last_lt⟩)).set
  rw [View.set_slice_whole]
  exact View.mem_set_unit_zero (out_off ⟨63, last_lt⟩) _ i

/-- The reshape after the region: the scalar result is the result array's one entry. -/
theorem exit_result (c : Dev nD) :
    (StableHlo.after (hostOps1 (F := F)) (Function.update (fun b => m (c, b)) (Proc.devRef .tc main_call0_v0) ((dats m 0 c).arrAt 2 cfg0.N)) (Proc.devRef .tc main_v0) : Vec F S_ .f32)
      = fun _ => ((dats m 0 c).arrAt 2 cfg0.N : Vec F S1x1 .f32) (ix2 (0 : Fin 1) (0 : Fin 1)) := by
  funext u
  show StableHlo.after (hostOps1 (F := F)) _ (Proc.devRef .tc main_v0) u = _
  after_results
  -- the reshape reads the region's result array, which the valuation holds at the result array's reference
  show shapeCast S_ (Function.update (fun b => m (c, b)) (Proc.devRef .tc main_call0_v0)
      ((dats m 0 c).arrAt 2 cfg0.N) (Proc.devRef .tc main_call0_v0)) shapeCasts_S1x1_S_ u = _
  rw [Function.update_self]
  -- both shapes have one element: the two row-major positions are 0
  refine shapeCast_apply _ _ u (ix2 (0 : Fin 1) (0 : Fin 1)) ?_
  show (S1x1.rowMajor (ix2 (0 : Fin 1) (0 : Fin 1))).val = (S_.rowMajor u).val
  have h1 : (S1x1.rowMajor (ix2 (0 : Fin 1) (0 : Fin 1))).val < 1 := (S1x1.rowMajor _).isLt
  have h2 : (S_.rowMajor u).val < 1 := (S_.rowMajor u).isLt
  omega

end Cert.KernelIdeal.Hand

end
-- ==== Proof.KI.Pieces.lean ====
/-
  What each case's stores leave, as the body's payloads of what the body loaded.

  The first accumulator is overwritten by one store of its old value plus the block's sum (at the first point the old
  value is the reset's zero); the second likewise; at the last point the output's block takes the final payload of the
  two accumulators' new values.
-/
import proofs.«137138_j82729660056292_1_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-2 rectangle are the constant zero function. -/
theorem offZero2 : (![0, 0] : Fin 2 → Nat) = fun _ => 0 := funext fun a => by fin_cases a <;> rfl

theorem firstAcc0_eq (c : Dev nD) (t : Fin cfg0.N) (hc0 : isFirst (grid0.coords t)) (hc1 : ¬isLast (grid0.coords t))
    (x0 : Vec F S128x128 .f32) (x1 : Vec F S8192x128 .f32) :
    firstAcc0 (F := F) c t hc0 hc1 x0 x1 = k0_pay4 x0 (k0_pay2 (F := F)) := by
  unfold firstAcc0
  rw [View.read_writes_eq_canon _ _ _ (firstCover0 c t hc0 hc1 x0 x1)]
  unfold firstAt runFirst
  dsimp only
  sl_unfold_words
  rw [View.canon_cons_unit_zero (S := S1x1) offZero2, View.readCov_unit_zero (S := S1x1) _ offZero2]
  simp only [View.readAt_eq_ld, (hst0 t).read_unread, (hst1 t).read_unread, (Memref.isWhole_whole cc0_scratch0).read_unread,
    (Memref.isWhole_whole cc0_scratch1).read_unread, View.ld_unit_zero (S := S128x128) offZero2, View.ld_unit_zero (S := S1x1) offZero2,
    View.ld_unit_zero (S := S8192x128) offZero2]

theorem firstAcc1_eq (c : Dev nD) (t : Fin cfg0.N) (hc0 : isFirst (grid0.coords t)) (hc1 : ¬isLast (grid0.coords t))
    (x0 : Vec F S128x128 .f32) (x1 : Vec F S8192x128 .f32) :
    firstAcc1 (F := F) c t hc0 hc1 x0 x1 = k0_pay8 (BitVec.ofNat 32 ((grid0.coords t) 0).val) x0 (k0_pay5 x0) (k0_pay6 x1) (k0_pay7 x1) (constant S128x8192 .f32 0x00000000#32) (k0_pay3 (F := F)) := by
  unfold firstAcc1
  rw [View.read_writes_eq_canon _ _ _ (firstCover1 c t hc0 hc1 x0 x1)]
  unfold firstAt runFirst
  dsimp only
  sl_unfold_words
  rw [View.canon_cons_unit_zero (S := S1x1) offZero2, View.readCov_unit_zero (S := S1x1) _ offZero2]
  simp only [View.readAt_eq_ld, (hst0 t).read_unread, (hst1 t).read_unread, (Memref.isWhole_whole cc0_scratch0).read_unread,
    (Memref.isWhole_whole cc0_scratch1).read_unread, View.ld_unit_zero (S := S128x128) offZero2, View.ld_unit_zero (S := S1x1) offZero2,
    View.ld_unit_zero (S := S8192x128) offZero2]

theorem midAcc0_eq (c : Dev nD) (t : Fin cfg0.N) (hc0 : ¬isFirst (grid0.coords t)) (hc1 : ¬isLast (grid0.coords t))
    (x0 : Vec F S128x128 .f32) (x1 : Vec F S8192x128 .f32) (xs0 xs1 : Vec F S1x1 .f32) :
    midAcc0 (F := F) c t hc0 hc1 x0 x1 xs0 xs1 = k0_pay4 x0 xs0 := by
  unfold midAcc0
  rw [View.read_writes_eq_canon _ _ _ (midCover0 c t hc0 hc1 x0 x1 xs0 xs1)]
  unfold midAt runMid
  dsimp only
  sl_unfold_words
  rw [View.canon_unit_zero offZero2]
  simp only [View.readAt_eq_ld, (hst0 t).read_unread, (hst1 t).read_unread, (Memref.isWhole_whole cc0_scratch0).read_unread,
    (Memref.isWhole_whole cc0_scratch1).read_unread, View.ld_unit_zero (S := S128x128) offZero2, View.ld_unit_zero (S := S1x1) offZero2,
    View.ld_unit_zero (S := S8192x128) offZero2]

theorem midAcc1_eq (c : Dev nD) (t : Fin cfg0.N) (hc0 : ¬isFirst (grid0.coords t)) (hc1 : ¬isLast (grid0.coords t))
    (x0 : Vec F S128x128 .f32) (x1 : Vec F S8192x128 .f32) (xs0 xs1 : Vec F S1x1 .f32) :
    midAcc1 (F := F) c t hc0 hc1 x0 x1 xs0 xs1 = k0_pay8 (BitVec.ofNat 32 ((grid0.coords t) 0).val) x0 (k0_pay5 x0) (k0_pay6 x1) (k0_pay7 x1) (constant S128x8192 .f32 0x00000000#32) xs1 := by
  unfold midAcc1
  rw [View.read_writes_eq_canon _ _ _ (midCover1 c t hc0 hc1 x0 x1 xs0 xs1)]
  unfold midAt runMid
  dsimp only
  sl_unfold_words
  rw [View.canon_unit_zero offZero2]
  simp only [View.readAt_eq_ld, (hst0 t).read_unread, (hst1 t).read_unread, (Memref.isWhole_whole cc0_scratch0).read_unread,
    (Memref.isWhole_whole cc0_scratch1).read_unread, View.ld_unit_zero (S := S128x128) offZero2, View.ld_unit_zero (S := S1x1) offZero2,
    View.ld_unit_zero (S := S8192x128) offZero2]

theorem lastAcc0_eq (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) :
    lastAcc0 (F := F) c t hc0 hc1 x0 x1 xs0 xs1 = k0_pay4 x0 xs0 := by
  unfold lastAcc0
  rw [View.read_writes_eq_canon _ _ _ (lastCover0 c t hc0 hc1 x0 x1 xs0 xs1)]
  unfold lastAt runLast
  dsimp only
  sl_unfold_words
  rw [View.canon_unit_zero offZero2]
  simp only [View.readAt_eq_ld, (hst0 t).read_unread, (hst1 t).read_unread, (Memref.isWhole_whole cc0_scratch0).read_unread,
    (Memref.isWhole_whole cc0_scratch1).read_unread, View.ld_unit_zero (S := S128x128) offZero2, View.ld_unit_zero (S := S1x1) offZero2,
    View.ld_unit_zero (S := S8192x128) offZero2]

theorem lastAcc1_eq (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) :
    lastAcc1 (F := F) c t hc0 hc1 x0 x1 xs0 xs1 = k0_pay8 (BitVec.ofNat 32 ((grid0.coords t) 0).val) x0 (k0_pay5 x0) (k0_pay6 x1) (k0_pay7 x1) (constant S128x8192 .f32 0x00000000#32) xs1 := by
  unfold lastAcc1
  rw [View.read_writes_eq_canon _ _ _ (lastCover1 c t hc0 hc1 x0 x1 xs0 xs1)]
  unfold lastAt runLast
  dsimp only
  sl_unfold_words
  rw [View.canon_unit_zero offZero2]
  simp only [View.readAt_eq_ld, (hst0 t).read_unread, (hst1 t).read_unread, (Memref.isWhole_whole cc0_scratch0).read_unread,
    (Memref.isWhole_whole cc0_scratch1).read_unread, View.ld_unit_zero (S := S128x128) offZero2, View.ld_unit_zero (S := S1x1) offZero2,
    View.ld_unit_zero (S := S8192x128) offZero2]

theorem lastOut_eq (c : Dev nD) (t : Fin cfg0.N) (hc0 : ¬isFirst (grid0.coords t)) (hc1 : isLast (grid0.coords t))
    (x0 : Vec F S128x128 .f32) (x1 : Vec F S8192x128 .f32) (xs0 xs1 : Vec F S1x1 .f32) :
    lastOut (F := F) c t hc0 hc1 x0 x1 xs0 xs1 = k0_pay1 (k0_pay4 x0 xs0) (k0_pay8 (BitVec.ofNat 32 ((grid0.coords t) 0).val) x0 (k0_pay5 x0) (k0_pay6 x1) (k0_pay7 x1) (constant S128x8192 .f32 0x00000000#32) xs1) := by
  unfold lastOut
  rw [View.read_writes_eq_canon _ _ _ (lastCoverOut c t hc0 hc1 x0 x1 xs0 xs1)]
  unfold lastAt runLast
  dsimp only
  sl_unfold_words
  rw [View.canon_unit_zero offZero2]
  simp only [View.readAt_eq_ld, (hst0 t).read_unread, (hst1 t).read_unread, (Memref.isWhole_whole cc0_scratch0).read_unread,
    (Memref.isWhole_whole cc0_scratch1).read_unread, View.ld_unit_zero (S := S128x128) offZero2, View.ld_unit_zero (S := S1x1) offZero2,
    View.ld_unit_zero (S := S8192x128) offZero2, View.readCov_unit_zero (S := S1x1) _ offZero2]

end Cert.KernelIdeal.Hand

end
-- ==== Proof.LibBlockSum.lean ====
/- Sums over consecutive blocks, and a running sum as a finite sum.

   A sum over B blocks of R consecutive positions each is the sum over all B · R positions; a sequence that starts at
   `0 + c 0` and adds `c (n + 1)` at each step is, after step n, the sum of `c` over the first n + 1 steps. Both hold in
   any commutative additive monoid (the extended reals are one: regrouping a sum needs no finiteness). -/
import Mathlib.Algebra.BigOperators.Group.Finset.Basic
import Mathlib.Algebra.BigOperators.Fin
import Mathlib.Data.Fintype.BigOperators

namespace Cert.BlockSum

open scoped BigOperators

/-- Position `r` of block `t`, among all `N = B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- The sum over the blocks of the sums over a block's positions is the sum over all positions. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

/-- The block that holds position `n`, and `n`'s place in it. -/
theorem pos_div_mod {B R N : Nat} (hN : B * R = N) (hR : 0 < R) (n : Fin N) :
    ∃ (t : Fin B) (r : Fin R), n = pos hN t r ∧ t.val = n.val / R ∧ r.val = n.val % R := by
  have hn : n.val / R < B := by
    rw [Nat.div_lt_iff_lt_mul hR, hN]
    exact n.isLt
  refine ⟨⟨n.val / R, hn⟩, ⟨n.val % R, Nat.mod_lt _ hR⟩, ?_, rfl, rfl⟩
  apply Fin.ext
  show n.val = R * (n.val / R) + n.val % R
  exact (Nat.div_add_mod n.val R).symm

/-- A running sum from `0 + c 0`, adding `c (n + 1)` at step n + 1, is the sum over the first n + 1 steps. -/
theorem running_sum {M : Type*} [AddCommMonoid M] (c acc : ℕ → M) (h0 : acc 0 = 0 + c 0)
    (hs : ∀ n, acc (n + 1) = acc n + c (n + 1)) (n : ℕ) : acc n = ∑ t ∈ Finset.range (n + 1), c t := by
  induction n with
  | zero =>
    show acc 0 = ∑ t ∈ Finset.range 1, c t
    rw [h0, zero_add, Finset.sum_range_one]
  | succ n ih => rw [hs, ih, Finset.sum_range_succ c (n + 1)]

/-- The same sum over `Fin`: the first B steps as a sum over `Fin B`. -/
theorem sum_range_eq_sum_fin {M : Type*} [AddCommMonoid M] (B : ℕ) (c : ℕ → M) :
    ∑ t ∈ Finset.range B, c t = ∑ t : Fin B, c t.val :=
  Finset.sum_range c

end Cert.BlockSum
-- ==== Proof.KI.Blocks.lean ====
/-
  The input windows' blocks read off the argument array: the first window's block at point t is rows 128 t to
  128 t + 127 of the array; the second window's block is the whole array at every point; the grid's one coordinate at
  point t is t.
-/
import proofs.«137138_j82729660056292_1_alg».proof.Proof.KI.Data
import proofs.«137138_j82729660056292_1_alg».proof.Proof.LibBlockSum
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The grid's one coordinate at point t is t. -/
theorem coords_val (t : Fin cfg0.N) : ((grid0.coords t) 0).val = t.val :=
  (by decide +kernel : ∀ t : Fin grid0.N, ((grid0.coords t) 0).val = t.val) t

/-- The two input windows' block numbers, decided over the grid: the first window's block at point t is block t
    along the rows and block 0 along the columns; the second window's is block 0 along both. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0)

/-- Point t as a block number among the 64 blocks. -/
abbrev blockNo (t : Fin cfg0.N) : Fin 64 := ⟨t.val, lt_of_lt_of_eq t.isLt (show cfg0.N = 64 from N_0)⟩

/-- The first window's block at point t, at (r, k): the array at row 128 t + r, column k. -/
theorem iblk0_apply (c : Dev nD) (t : Fin cfg0.N) (r : Fin 128) (k : Fin 128) :
    (iblk m c 0 t : Vec F S128x128 .f32) (ix2 r k)
      = (m ((c.tc : Thread nD τ).loc main_arg0) : Vec F S8192x128 .f32)
          (ix2 (Cert.BlockSum.pos (B := 64) (R := 128) (N := 8192) rfl (blockNo t) r) k) := by
  obtain ⟨e0, e1, -, -⟩ := idx_facts t
  show (m ((c.tc : Thread nD τ).loc main_arg0) : Vec F S8192x128 .f32) (((cfg0.win 0).blk t).view.emb (ix2 r k)) = _
  refine congrArg _ ?_
  funext a
  apply Fin.ext
  match a with
  | ⟨0, _⟩ =>
    show win0_0.index t (0 : Fin 2) * 128 + 1 * r.val = 128 * t.val + r.val
    omega
  | ⟨1, _⟩ =>
    show win0_0.index t (1 : Fin 2) * 128 + 1 * k.val = k.val
    omega

/-- The second window's block is the whole array at every point. -/
theorem iblk1_eq (c : Dev nD) (t : Fin cfg0.N) :
    (iblk m c 1 t : Vec F S8192x128 .f32) = (m ((c.tc : Thread nD τ).loc main_arg0) : Vec F S8192x128 .f32) := by
  obtain ⟨-, -, e0, e1⟩ := idx_facts t
  funext j
  show (m ((c.tc : Thread nD τ).loc main_arg0) : Vec F S8192x128 .f32) (((cfg0.win 1).blk t).view.emb j) = _
  refine congrArg _ ?_
  funext a
  apply Fin.ext
  match a with
  | ⟨0, _⟩ =>
    show win0_1.index t (0 : Fin 2) * 8192 + 1 * (j 0).val = (j 0).val
    omega
  | ⟨1, _⟩ =>
    show win0_1.index t (1 : Fin 2) * 128 + 1 * (j 1).val = (j 1).val
    omega

end Cert.KernelIdeal.Hand

end
-- ==== Proof.Spec.lean ====
/-
  The specification: the loss as one function of the input array, over the extended reals.

  For an array x of 8192 rows of 128 entries, with d(i) the distance of row i + ε to the origin and d(i, j) the
  distance between rows i and j (through the squared norms and the inner product, negative values cut at 0),
  and pe(d) = 1/d³ − 1/d² clipped to [−1.5, 1000]:

      G x = (Σ_i pe (d i)) / 8192 + (Σ_{i<j} pe (d (i, j))) / (8192 · 8191 / 2).

  The literals are the float patterns both programs print; nothing here evaluates them but the zero.
-/
import Idealize.ShloMosaic.PureOps.Ideal
import Idealize.ShloMosaic.Lib.ValueIdx

noncomputable section

open scoped BigOperators

namespace Cert.Spec

open Idealize.ShloMosaic Idealize.ShloMosaic.ValueIdx

/-- An input array: 8192 rows of 128 extended reals. -/
abbrev Arr : Type := (⟨2, ![8192, 128]⟩ : Shape).Idx → EReal

/-- The offset added to every entry before the norm of a row is taken. -/
def eps : EReal := Ideal.ofBits .f32 0x358637BD#32
/-- One. -/
def one : EReal := Ideal.ofBits .f32 0x3F800000#32
/-- Two. -/
def two : EReal := Ideal.ofBits .f32 0x40000000#32
/-- The lower clip bound, −1.5. -/
def lo : EReal := Ideal.ofBits .f32 0xBFC00000#32
/-- The upper clip bound, 1000. -/
def hi : EReal := Ideal.ofBits .f32 0x447A0000#32
/-- The number of rows, 8192. -/
def nRows : EReal := Ideal.ofBits .f32 0x46000000#32
/-- The number of pairs of distinct rows, 8192 · 8191 / 2. -/
def nPairs : EReal := Ideal.ofBits .f32 0x4BFFF800#32

/-- The clipped power-law transform of a distance: 1/d³ − 1/d², clipped to [lo, hi]. -/
def pe (d : EReal) : EReal :=
  min hi (max lo (Ideal.div one (d * (d * d)) - Ideal.div one (d * d)))

/-- The squared norm of row i shifted by ε. -/
def normSqEps (x : Arr) (i : Fin 8192) : EReal := ∑ k : Fin 128, (x (ix2 i k) + eps) * (x (ix2 i k) + eps)

/-- Row i's term of the first sum. -/
def rowTerm (x : Arr) (i : Fin 8192) : EReal := pe (Ideal.sqrt (normSqEps x i))

/-- The squared norm of row i. -/
def normSq (x : Arr) (i : Fin 8192) : EReal := ∑ k : Fin 128, x (ix2 i k) * x (ix2 i k)

/-- The inner product of rows i and j. -/
def inner (x : Arr) (i j : Fin 8192) : EReal := ∑ k : Fin 128, x (ix2 i k) * x (ix2 j k)

/-- The squared distance between rows i and j, through the norms and the inner product. -/
def distSq (x : Arr) (i j : Fin 8192) : EReal := normSq x i + normSq x j - two * inner x i j

/-- The pair (i, j)'s term of the second sum: the transform of the distance above the diagonal, zero elsewhere. -/
def pairTerm (x : Arr) (i j : Fin 8192) : EReal :=
  if i.val < j.val then pe (Ideal.sqrt (max (distSq x i j) 0)) else 0

/-- The loss. -/
def G (x : Arr) : EReal :=
  Ideal.div (∑ i : Fin 8192, rowTerm x i) nRows + Ideal.div (∑ i : Fin 8192, ∑ j : Fin 8192, pairTerm x i j) nPairs

/-! ## The same terms read off one block of 128 rows

A block of 128 consecutive rows `v`, beside the whole array `w`, the block's first row being row `base` of the array. -/

/-- A block of 128 rows of 128 extended reals. -/
abbrev Blk : Type := (⟨2, ![128, 128]⟩ : Shape).Idx → EReal

/-- Row r of the block: its term of the first sum. -/
def rowTermB (v : Blk) (r : Fin 128) : EReal :=
  pe (Ideal.sqrt (∑ k : Fin 128, (v (ix2 r k) + eps) * (v (ix2 r k) + eps)))

/-- Row r of the block against row j of the array: the pair's term of the second sum, row r being row base + r. -/
def pairTermB (v : Blk) (w : Arr) (base : ℕ) (r : Fin 128) (j : Fin 8192) : EReal :=
  if base + r.val < j.val then
    pe (Ideal.sqrt (max ((∑ k : Fin 128, v (ix2 r k) * v (ix2 r k)) + normSq w j
      - two * ∑ k : Fin 128, v (ix2 r k) * w (ix2 j k)) 0))
  else 0

end Cert.Spec

end
-- ==== Proof.LibKeepdims.lean ====
/- Layout operations and one-axis reductions of small ranks read at an index written by coordinates.

   What a row-wise kernel with `keepdims` sums meets: a column [a] viewed as [a, 1]; a matrix [a, c] viewed as
   [a, 1, c]; the broadcasts [a, 1, c] → [a, b, c] and [a, 1] → [a, b]; a sum or a maximum over the last axis of a
   rank-3 or rank-2 vector, and a sum over the first axis of a rank-2 vector, each as a sum or fold over that axis's
   coordinate; the host's reductions over the last axis of a rank-2 array likewise. Every shape fact is a variable,
   so a lemma applies whatever proof term a program carries for it. -/
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

/-- A column [a] viewed as [a, 1] reads, at (r, u), the column at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A matrix [a, c] viewed as [a, 1, c] reads, at (r, u, q), the matrix at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- [a, 1, c] broadcast along its middle axis reads, at (r, k, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (q : Fin c) :
    broadcastTo ⟨3, ![a, b, c]⟩ x h (ix3 r k q) = x (ix3 r (0 : Fin 1) q) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl]
    | ⟨2, _⟩ => by
      have := q.isLt
      show q.val = if c = 1 then 0 else q.val
      split <;> omega)

/-- A column [a, 1] broadcast along its unit axis reads, at (r, k), the column at (r, 0). -/
theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r) with k inserted on the last of two axes is (r, k). -/
theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The index over (q) with r inserted on the first of two axes is (r, q). -/
theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the last of two axes, at (r): the sum over k of the source at (r, k). -/
theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

/-- A sum over the first of two axes, at (q): the sum over r of the source at (r, q). -/
theorem sum_first2_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (lift_first2 h r q))

/-- A maximum over the last of two axes, at (r): the fold of max, from the accumulator's value, over k of the
    source at (r, k). -/
theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

/-- The host's maximum over the last of two axes, at (r): the same fold, from the initial value's element. -/
theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.KI.PayRows.lean ====
/-
  The kernel body's small payloads over the extended reals: the two resets are zero; the first accumulator's new
  value is its old value plus the sum over the block's rows of each row's term; the final value is the first
  accumulator over the number of rows plus the second over the number of pairs.
-/
import proofs.«137138_j82729660056292_1_alg».proof.Proof.Gen.KernelIdeal.Skeleton
import proofs.«137138_j82729660056292_1_alg».proof.Proof.Spec
import proofs.«137138_j82729660056292_1_alg».proof.Proof.LibKeepdims
import Idealize.ShloMosaic.Lib.Pipeline.Value
import Idealize.ShloMosaic.Lib.ValueLayout

noncomputable section

open scoped BigOperators

namespace Cert.KernelIdeal.PayValue

open Cert.KernelIdeal Cert.KernelIdeal.Gen Idealize.ShloMosaic Idealize.ShloMosaic.ValueIdx

/-! ## Small steps over variables -/

/-- A [1,1] vector has one index. -/
theorem idx11 (j : S1x1.Idx) : j = ix2 (0 : Fin 1) (0 : Fin 1) := by
  funext a
  refine Fin.ext ?_
  match a with
  | ⟨0, _⟩ => have := idx2_lt0 j; show (j 0).val = 0; omega
  | ⟨1, _⟩ => have := idx2_lt1 j; show (j 1).val = 0; omega

/-- The splat of the zero word, viewed at its own shape, is zero everywhere. -/
theorem zero_splat (j : S1x1.Idx) :
    shapeCast S1x1 (broadcast S1x1 (Scalar.ofBits (F := Ideal) .f32 0x00000000#32)) shapeCasts_S1x1_S1x1 j = (0 : EReal) := by
  rw [shapeCast_self]
  exact Ideal.ofBits_zero_f32

/-- The reset value of the first accumulator is zero. -/
theorem pay2_eq : k0_pay2 (F := Ideal) = fun _ => (0 : EReal) := by
  funext j
  exact zero_splat j

/-- The reset value of the second accumulator is zero. -/
theorem pay3_eq : k0_pay3 (F := Ideal) = fun _ => (0 : EReal) := by
  funext j
  exact zero_splat j

/-- The clipped transform, computed lane by lane, reads the transform of the lane. -/
theorem pe_lane (d : FVec Ideal S128 .f32) (r : Fin 128) :
    minimumf (broadcast S128 (Scalar.ofBits (F := Ideal) .f32 0x447A0000#32))
      (maximumf (broadcast S128 (Scalar.ofBits (F := Ideal) .f32 0xBFC00000#32))
        (subf (divf (broadcast S128 (Scalar.ofBits (F := Ideal) .f32 0x3F800000#32)) (mulf d (mulf d d)))
          (divf (broadcast S128 (Scalar.ofBits (F := Ideal) .f32 0x3F800000#32)) (mulf d d)))) (ix1 r)
      = Cert.Spec.pe (d (ix1 r)) := rfl

/-- The root of the lane sums of the shifted squares reads, at row r, the root of that row's sum. -/
theorem norm_lane (v3 : Vec Ideal S128x128 .f32) (r : Fin 128) :
    sqrt (multiReduction (F := Ideal) .add [1] S128
        (mulf (addf v3 (broadcast S128x128 (Scalar.ofBits (F := Ideal) .f32 0x358637BD#32)))
          (addf v3 (broadcast S128x128 (Scalar.ofBits (F := Ideal) .f32 0x358637BD#32))))
        0x00000000#32 reduces_S128x128_S128 (.inl rfl) rfl) (ix1 r)
      = Ideal.sqrt (∑ k : Fin 128, (v3 (ix2 r k) + Cert.Spec.eps) * (v3 (ix2 r k) + Cert.Spec.eps)) :=
  congrArg Ideal.sqrt (Cert.Keepdims.sum_last2_apply _ 0x00000000#32 reduces_S128x128_S128 (.inl rfl) rfl r)

/-- A row [128] viewed as [1, 128] reads, at (0, k), the row at k. -/
theorem row_view (w : FVec Ideal S128 .f32) (k : Fin 128) :
    shapeCast S1x128 w shapeCasts_S128_S1x128 (ix2 (0 : Fin 1) k) = w (ix1 k) :=
  shapeCast_apply w shapeCasts_S128_S1x128 _ _ (by
    rw [Shape.rowMajor_val_two, Shape.rowMajor_val_one]
    show k.val = 0 * 128 + k.val
    omega)

/-- The one-entry vector [1] viewed as [1, 1] reads its entry. -/
theorem one_view (y : FVec Ideal S1 .f32) (j : S1x1.Idx) :
    shapeCast S1x1 y shapeCasts_S1_S1x1 j = y (ix1 (0 : Fin 1)) :=
  shapeCast_apply y shapeCasts_S1_S1x1 _ _ (by
    rw [Shape.rowMajor_val_two, Shape.rowMajor_val_one, idx11 j]
    rfl)

/-- The sum of a row's lanes, extracted and added to a [1, 1] accumulator. -/
theorem acc_step (w : FVec Ideal S128 .f32) (s : Vec Ideal S1x1 .f32) (j : S1x1.Idx) :
    shapeCast S1x1 (addf s (broadcast S1x1 (extractAt ![0, 0]
        (shapeCast S1x1 (multiReduction (F := Ideal) .add [1] S1 (shapeCast S1x128 w shapeCasts_S128_S1x128)
          0x00000000#32 reduces_S1x128_S1 (.inl rfl) rfl) shapeCasts_S1_S1x1) inpos_S1x1_p0_0))) shapeCasts_S1x1_S1x1 j
      = s (ix2 (0 : Fin 1) (0 : Fin 1)) + ∑ r : Fin 128, w (ix1 r) := by
  rw [shapeCast_self, idx11 j]
  show s (ix2 (0 : Fin 1) (0 : Fin 1)) + shapeCast S1x1 (multiReduction (F := Ideal) .add [1] S1
      (shapeCast S1x128 w shapeCasts_S128_S1x128) 0x00000000#32 reduces_S1x128_S1 (.inl rfl) rfl) shapeCasts_S1_S1x1 _ = _
  rw [one_view]
  refine congrArg (fun t => s (ix2 (0 : Fin 1) (0 : Fin 1)) + t) ?_
  refine (Cert.Keepdims.sum_last2_apply _ 0x00000000#32 reduces_S1x128_S1 (.inl rfl) rfl (0 : Fin 1)).trans ?_
  exact Finset.sum_congr rfl fun k _ => row_view w k

/-- The first accumulator after a point: what it held plus the sum of the block's rows' terms. -/
theorem pay4_eq (v3 : Vec Ideal S128x128 .f32) (s : Vec Ideal S1x1 .f32) :
    k0_pay4 (F := Ideal) v3 s
      = fun _ => s (ix2 (0 : Fin 1) (0 : Fin 1)) + ∑ r : Fin 128, Cert.Spec.rowTermB v3 r := by
  funext j
  refine (acc_step _ s j).trans ?_
  refine congrArg (fun t => s (ix2 (0 : Fin 1) (0 : Fin 1)) + t) ?_
  refine Finset.sum_congr rfl fun r _ => ?_
  refine (pe_lane _ r).trans ?_
  exact congrArg Cert.Spec.pe (norm_lane v3 r)

/-- The result stored at the last point: the first accumulator over the number of rows plus the second over the
    number of pairs. -/
theorem pay1_eq (a b : Vec Ideal S1x1 .f32) :
    k0_pay1 (F := Ideal) a b
      = fun _ => Ideal.div (a (ix2 (0 : Fin 1) (0 : Fin 1))) Cert.Spec.nRows
          + Ideal.div (b (ix2 (0 : Fin 1) (0 : Fin 1))) Cert.Spec.nPairs := by
  funext j
  rw [idx11 j]
  rfl

end Cert.KernelIdeal.PayValue

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.KI.PayPairs.lean ====
/-
  The kernel body's large payload over the extended reals: the second accumulator after a point is what it held
  plus the sum, over the block's rows and all rows of the array, of the pair's term — the mask "row of the block,
  counted in the array, is before row j" decoded from the 32-bit comparison of the two iotas.
-/
import proofs.«137138_j82729660056292_1_alg».proof.Proof.Gen.KernelIdeal.Skeleton
import proofs.«137138_j82729660056292_1_alg».proof.Proof.Spec
import proofs.«137138_j82729660056292_1_alg».proof.Proof.LibKeepdims
import proofs.«137138_j82729660056292_1_alg».proof.Proof.LibDotPlain
import Idealize.ShloMosaic.Lib.Pipeline.Value
import Idealize.ShloMosaic.Lib.ValueLayout
import Idealize.ShloMosaic.Lib.StableHlo.Predicate

noncomputable section

open scoped BigOperators

namespace Cert.KernelIdeal.PayValue

open Cert.KernelIdeal Cert.KernelIdeal.Gen Idealize.ShloMosaic Idealize.ShloMosaic.ValueIdx

namespace Pairs

/-! ## The squared distances -/

/-- The product of the block with the transposed array, into the zero accumulator, at (r, j): the inner product of
    row r of the block and row j of the array. -/
theorem dot_apply (l : FVec Ideal S128x128 .f32) (w : FVec Ideal S8192x128 .f32) (T : FVec Ideal S128x8192 .f32)
    (hT : ∀ (k : Fin 128) (j : Fin 8192), T (ix2 k j) = w (ix2 j k)) (r : Fin 128) (j : Fin 8192) :
    matmul dot_S128x128_S128x8192_S128x8192_1_0_0_1_n_n none l T (constant S128x8192 .f32 0x00000000#32) (ix2 r j)
      = ∑ k : Fin 128, l (ix2 r k) * w (ix2 j k) := by
  refine (Cert.DotPlain.matmul_zero_rows_cols dot_S128x128_S128x8192_S128x8192_1_0_0_1_n_n rfl rfl rfl rfl rfl rfl
    none l T r j).trans ?_
  refine Finset.sum_congr rfl fun k _ => ?_
  exact congrArg (l (ix2 r k) * ·) (hT k j)

/-- A column of 128 values laid along the rows of a [128, 8192] rectangle reads, at (r, j), the column at r. -/
theorem col_apply {α : Type} (p : S128.Idx → α) (h1 : S128.ShapeCasts S128x1) (h2 : S128x1.Broadcasts S128x8192)
    (r : Fin 128) (j : Fin 8192) :
    broadcastTo S128x8192 (shapeCast S128x1 p h1) h2 (ix2 r j) = p (ix1 r) :=
  (Cert.Keepdims.broadcastTo_a1_ab_apply _ h2 r j).trans (Cert.Keepdims.shapeCast_a_a1_apply p h1 r 0)

/-- A row of 8192 values laid along the columns of a [128, 8192] rectangle reads, at (r, j), the row at j. -/
theorem row_apply {α : Type} (q : S8192.Idx → α) (h1 : S8192.ShapeCasts S1x8192) (h2 : S1x8192.Broadcasts S128x8192)
    (r : Fin 128) (j : Fin 8192) :
    broadcastTo S128x8192 (shapeCast S1x8192 q h1) h2 (ix2 r j) = q (ix1 j) :=
  (broadcastTo_1b_ab_apply _ h2 r j).trans (shapeCast_a_1a_apply q h1 0 j)

/-- The block's squared row norms, at r. -/
theorem pay5_apply (v3 : Vec Ideal S128x128 .f32) (r : Fin 128) :
    k0_pay5 (F := Ideal) v3 (ix1 r) = ∑ k : Fin 128, v3 (ix2 r k) * v3 (ix2 r k) := by
  unfold k0_pay5
  exact Cert.Keepdims.sum_last2_apply (mulf v3 v3) _ _ _ _ r

/-- The array's squared row norms, at j. -/
theorem pay6_apply (v4 : Vec Ideal S8192x128 .f32) (j : Fin 8192) :
    k0_pay6 (F := Ideal) v4 (ix1 j) = Cert.Spec.normSq v4 j := by
  unfold k0_pay6
  exact Cert.Keepdims.sum_last2_apply (mulf v4 v4) _ _ _ _ j

/-- The array's transpose, at (k, j). -/
theorem pay7_apply (v4 : Vec Ideal S8192x128 .f32) (k : Fin 128) (j : Fin 8192) :
    k0_pay7 (F := Ideal) v4 (ix2 k j) = v4 (ix2 j k) := by
  unfold k0_pay7
  exact transpose_ix2_apply v4 _ k j

/-- The squared distance of row r of the block and row j of the array, through the two squared norms (a column p and
    a row q laid over the rectangle) and twice the inner product, at (r, j). -/
theorem d2_apply (l : FVec Ideal S128x128 .f32) (w : FVec Ideal S8192x128 .f32)
    (p : FVec Ideal S128 .f32) (q : FVec Ideal S8192 .f32) (T : FVec Ideal S128x8192 .f32)
    (hp : ∀ r : Fin 128, p (ix1 r) = ∑ k : Fin 128, l (ix2 r k) * l (ix2 r k))
    (hq : ∀ j : Fin 8192, q (ix1 j) = Cert.Spec.normSq w j)
    (hT : ∀ (k : Fin 128) (j : Fin 8192), T (ix2 k j) = w (ix2 j k))
    (h1 : S128.ShapeCasts S128x1) (h2 : S128x1.Broadcasts S128x8192)
    (h3 : S8192.ShapeCasts S1x8192) (h4 : S1x8192.Broadcasts S128x8192) (r : Fin 128) (j : Fin 8192) :
    subf (addf (broadcastTo S128x8192 (shapeCast S128x1 p h1) h2) (broadcastTo S128x8192 (shapeCast S1x8192 q h3) h4))
        (mulf (broadcast S128x8192 (Scalar.ofBits .f32 0x40000000#32))
          (matmul dot_S128x128_S128x8192_S128x8192_1_0_0_1_n_n none l T (constant S128x8192 .f32 0x00000000#32)))
        (ix2 r j)
      = (∑ k : Fin 128, l (ix2 r k) * l (ix2 r k)) + Cert.Spec.normSq w j
          - Cert.Spec.two * ∑ k : Fin 128, l (ix2 r k) * w (ix2 j k) := by
  show broadcastTo S128x8192 (shapeCast S128x1 p h1) h2 (ix2 r j)
        + broadcastTo S128x8192 (shapeCast S1x8192 q h3) h4 (ix2 r j)
      - Cert.Spec.two
        * matmul dot_S128x128_S128x8192_S128x8192_1_0_0_1_n_n none l T (constant S128x8192 .f32 0x00000000#32) (ix2 r j)
      = _
  rw [col_apply p h1 h2 r j, row_apply q h3 h4 r j, dot_apply l w T hT r j, hp r, hq j]

/-! ## The mask -/

/-- The comparison of the two index rectangles, at (r, j): the comparison of the words "a + r" and "j". -/
theorem mask_apply (a : BitVec 32) (hi0 : S128x1.Iotas .tc 32 [0]) (hi1 : S1x8192.Iotas .tc 32 [1])
    (hb0 : S128x1.Broadcasts S128x8192) (hb1 : S1x8192.Broadcasts S128x8192) (r : Fin 128) (j : Fin 8192) :
    cmpi .slt (broadcastTo S128x8192 (addi (broadcast S128x1 a) (iota .tc S128x1 32 [0] hi0)) hb0)
        (broadcastTo S128x8192 (iota .tc S1x8192 32 [1] hi1) hb1) (ix2 r j)
      = IntOp.cmpi .slt (a + BitVec.ofNat 32 r.val) (BitVec.ofNat 32 j.val) := by
  have e1 : broadcastTo S128x8192 (addi (broadcast S128x1 a) (iota .tc S128x1 32 [0] hi0)) hb0 (ix2 r j)
      = a + BitVec.ofNat 32 r.val :=
    (Cert.Keepdims.broadcastTo_a1_ab_apply _ hb0 r j).trans
      (congrArg (a + ·) (iota_single_apply .tc S128x1 32 0 hi0 (ix2 r (0 : Fin 1))))
  have e2 : broadcastTo S128x8192 (iota .tc S1x8192 32 [1] hi1) hb1 (ix2 r j) = BitVec.ofNat 32 j.val :=
    (broadcastTo_1b_ab_apply _ hb1 r j).trans (iota_single_apply .tc S1x8192 32 1 hi1 (ix2 (0 : Fin 1) j))
  show IntOp.cmpi .slt (broadcastTo S128x8192 (addi (broadcast S128x1 a) (iota .tc S128x1 32 [0] hi0)) hb0 (ix2 r j))
      (broadcastTo S128x8192 (iota .tc S1x8192 32 [1] hi1) hb1 (ix2 r j)) = _
  rw [e1, e2]

/-- With the block's first row at 128 t, t below 64, no word wraps: the comparison holds exactly when row 128 t + r of
    the array is before row j. -/
theorem mask_iff (t : Fin 64) (r : Fin 128) (j : Fin 8192) :
    IntOp.cmpi .slt (Scalar.muli (BitVec.ofNat 32 t.val) 128#32 + BitVec.ofNat 32 r.val) (BitVec.ofNat 32 j.val) = 1#1
      ↔ 128 * t.val + r.val < j.val := by
  have ht := t.isLt
  have hr := r.isLt
  have hj := j.isLt
  have hx : (Scalar.muli (BitVec.ofNat 32 t.val) 128#32 + BitVec.ofNat 32 r.val).toNat = 128 * t.val + r.val := by
    show (BitVec.ofNat 32 t.val * 128#32 + BitVec.ofNat 32 r.val).toNat = _
    rw [BitVec.toNat_add, BitVec.toNat_mul, BitVec.toNat_ofNat, BitVec.toNat_ofNat, BitVec.toNat_ofNat]
    omega
  have hy : (BitVec.ofNat 32 j.val).toNat = j.val := by
    rw [BitVec.toNat_ofNat]
    omega
  rw [StableHlo.Predicate.slt_iff_toNat (by omega) (by omega), hx, hy]

/-! ## One entry of the masked rectangle -/

/-- The clipped transform applied to a whole vector, at an index. -/
theorem pe_apply {S : Shape} (Q : FVec Ideal S .f32) (i : S.Idx) :
    minimumf (broadcast S (Scalar.ofBits .f32 0x447A0000#32))
        (maximumf (broadcast S (Scalar.ofBits .f32 0xBFC00000#32))
          (subf (divf (broadcast S (Scalar.ofBits .f32 0x3F800000#32)) (mulf Q (mulf Q Q)))
            (divf (broadcast S (Scalar.ofBits .f32 0x3F800000#32)) (mulf Q Q)))) i
      = Cert.Spec.pe (Q i) := rfl

/-- A bit decides both selects: on it, the transform of the root of the squared distance cut at zero; off it, zero,
    whatever the inner select held. -/
theorem entry_scalar (b : BitVec 1) (d : EReal) (f : EReal → EReal) :
    Scalar.select b (f (Ideal.sqrt (Scalar.select b (max d (Ideal.ofBits .f32 0x00000000#32))
        (Ideal.ofBits .f32 0x3F800000#32)))) (Ideal.ofBits .f32 0x00000000#32)
      = if b = 1#1 then f (Ideal.sqrt (max d 0)) else 0 := by
  by_cases hb : b = 1#1
  · subst hb
    rw [select_one, select_one, Ideal.ofBits_zero_f32, if_pos rfl]
  · rw [eq_zero_of_ne_one hb, select_zero, Ideal.ofBits_zero_f32, if_neg (by decide)]

/-- One entry of the masked rectangle, from the mask m and the squared distances D. -/
theorem entry_apply {S : Shape} (m : IVec S 1) (D : FVec Ideal S .f32) (i : S.Idx) :
    select m
        (minimumf (broadcast S (Scalar.ofBits .f32 0x447A0000#32))
          (maximumf (broadcast S (Scalar.ofBits .f32 0xBFC00000#32))
            (subf
              (divf (broadcast S (Scalar.ofBits .f32 0x3F800000#32))
                (mulf (sqrt (select m (maximumf D (broadcast S (Scalar.ofBits .f32 0x00000000#32)))
                    (broadcast S (Scalar.ofBits .f32 0x3F800000#32))))
                  (mulf (sqrt (select m (maximumf D (broadcast S (Scalar.ofBits .f32 0x00000000#32)))
                      (broadcast S (Scalar.ofBits .f32 0x3F800000#32))))
                    (sqrt (select m (maximumf D (broadcast S (Scalar.ofBits .f32 0x00000000#32)))
                      (broadcast S (Scalar.ofBits .f32 0x3F800000#32)))))))
              (divf (broadcast S (Scalar.ofBits .f32 0x3F800000#32))
                (mulf (sqrt (select m (maximumf D (broadcast S (Scalar.ofBits .f32 0x00000000#32)))
                    (broadcast S (Scalar.ofBits .f32 0x3F800000#32))))
                  (sqrt (select m (maximumf D (broadcast S (Scalar.ofBits .f32 0x00000000#32)))
                    (broadcast S (Scalar.ofBits .f32 0x3F800000#32)))))))))
        (broadcast S (Scalar.ofBits .f32 0x00000000#32)) i
      = if m i = 1#1 then Cert.Spec.pe (Ideal.sqrt (max (D i) 0)) else 0 :=
  entry_scalar (m i) (D i) Cert.Spec.pe

/-! ## The sum of the rectangle, added to the accumulator -/

/-- An index of a [1, 1] vector is (0, 0). -/
theorem idx11 (i : (⟨2, ![1, 1]⟩ : Shape).Idx) : i = ix2 (0 : Fin 1) (0 : Fin 1) := by
  funext a
  match a with
  | ⟨0, _⟩ => exact Fin.ext (Nat.lt_one_iff.mp (idx2_lt0 i))
  | ⟨1, _⟩ => exact Fin.ext (Nat.lt_one_iff.mp (idx2_lt1 i))

/-- The rectangle viewed [1, 128, 8192], summed over its last two axes, read back as a scalar and added to the
    accumulator: the accumulator's value plus the double sum of the rectangle over its rows and columns. -/
theorem tail_eq (X : FVec Ideal S128x8192 .f32) (s : Vec Ideal S1x1 .f32)
    (hc : S128x8192.ShapeCasts S1x128x8192) (hr : S1x128x8192.Reduces [1, 2] S1) (hφ : FKind.Formats .f32)
    (hacc : (0x00000000#32 : BitVec 32) = FKind.add.neutral .f32 hφ)
    (hc2 : S1.ShapeCasts S1x1x1) (hp : ∀ a, (![0, 0, 0] : Fin 3 → Nat) a < S1x1x1.size a) (hc3 : S1x1.ShapeCasts S1x1) :
    shapeCast S1x1 (addf s (broadcast S1x1 (extractAt ![0, 0, 0]
        (shapeCast S1x1x1 (multiReduction .add [1, 2] S1 (shapeCast S1x128x8192 X hc) 0x00000000#32 hr hφ hacc) hc2)
        hp))) hc3
      = fun _ => s (ix2 (0 : Fin 1) (0 : Fin 1)) + ∑ r : Fin 128, ∑ j : Fin 8192, X (ix2 r j) := by
  refine (shapeCast_self _ hc3).trans ?_
  funext i
  have hsum : extractAt ![0, 0, 0]
      (shapeCast S1x1x1 (multiReduction .add [1, 2] S1 (shapeCast S1x128x8192 X hc) 0x00000000#32 hr hφ hacc) hc2) hp
      = ∑ r : Fin 128, ∑ j : Fin 8192, X (ix2 r j) := by
    show multiReduction .add [1, 2] S1 (shapeCast S1x128x8192 X hc) 0x00000000#32 hr hφ hacc _ = _
    refine (Ideal.multiReduction_add_total (shapeCast S1x128x8192 X hc) _ hr (fun b => ?_) hφ hacc _).trans ?_
    · match b with | ⟨0, _⟩ => rfl
    · refine (Equiv.sum_comp (Shape.reshapeEquiv hc) X).trans ?_
      exact sum_idx2 X
  show s i + _ = _
  rw [hsum, idx11 i]
  rfl

end Pairs

open Pairs

/-- The second accumulator after point t: what it held plus the sum over the block's rows r and the array's rows j
    of the pair (128 t + r, j)'s term; the block's squared norms, the array's squared norms and the array's transpose
    are the three earlier payloads of the same block and array. -/
theorem pay8_eq (t : Fin 64) (v3 : Vec Ideal S128x128 .f32) (v4 : Vec Ideal S8192x128 .f32) (s : Vec Ideal S1x1 .f32) :
    k0_pay8 (F := Ideal) (BitVec.ofNat 32 t.val) v3 (k0_pay5 v3) (k0_pay6 v4) (k0_pay7 v4)
        (constant S128x8192 .f32 0x00000000#32) s
      = fun _ => s (ix2 (0 : Fin 1) (0 : Fin 1))
          + ∑ r : Fin 128, ∑ j : Fin 8192, Cert.Spec.pairTermB v3 v4 (128 * t.val) r j := by
  unfold k0_pay8
  refine (tail_eq _ s _ _ _ _ _ _ _).trans ?_
  refine funext fun _ => congrArg (s (ix2 (0 : Fin 1) (0 : Fin 1)) + ·) ?_
  refine Finset.sum_congr rfl fun r _ => Finset.sum_congr rfl fun j _ => ?_
  refine (entry_apply _ _ (ix2 r j)).trans ?_
  have hM := mask_apply (Scalar.muli (BitVec.ofNat 32 t.val) 128#32) iota_S128x1_d0_w32 iota_S1x8192_d1_w32
    broadcasts_S128x1_S128x8192 broadcasts_S1x8192_S128x8192 r j
  unfold Cert.Spec.pairTermB
  by_cases h : 128 * t.val + r.val < j.val
  · refine (if_pos (hM.trans ((mask_iff t r j).mpr h))).trans ?_
    refine Eq.trans ?_ (if_pos h).symm
    refine congrArg (fun d => Cert.Spec.pe (Ideal.sqrt (max d 0))) ?_
    exact d2_apply v3 v4 _ _ _ (pay5_apply v3) (pay6_apply v4) (pay7_apply v4) _ _ _ _ r j
  · refine (if_neg fun e => h ((mask_iff t r j).mp (hM.symm.trans e))).trans ?_
    exact (if_neg h).symm

end Cert.KernelIdeal.PayValue

end
-- ==== Proof.KI.Value.lean ====
/-
  The kernel's result over the extended reals is the specification's loss of the argument array.

  After point n the first accumulator holds the sum, over the points up to n, of the point's block's rows' terms, and
  the second the sum of the pairs' terms of the block's rows against all rows: each point adds its block's sum to what
  the point before left, starting from zero. The 64 blocks of 128 consecutive rows are the 8192 rows, so after the last
  point the accumulators hold the two sums of the specification, and the result stored there is the first over the
  number of rows plus the second over the number of pairs.
-/
import proofs.«137138_j82729660056292_1_alg».proof.Proof.KI.Pieces
import proofs.«137138_j82729660056292_1_alg».proof.Proof.KI.Blocks
import proofs.«137138_j82729660056292_1_alg».proof.Proof.KI.PayRows
import proofs.«137138_j82729660056292_1_alg».proof.Proof.KI.PayPairs
import proofs.«137138_j82729660056292_1_alg».proof.Proof.LibBlockSum
import proofs.«137138_j82729660056292_1_alg».proof.Proof.Spec

set_option maxRecDepth 16384

noncomputable section

open scoped BigOperators

namespace Cert.KernelIdeal.Hand

open Idealize.ShloMosaic Idealize.ShloMosaic.TcCoe Idealize.SL.Sem
open Idealize.ShloMosaic.ValueIdx
open Cert.KernelIdeal.Gen Cert.KernelIdeal.PayValue

variable (m : (ℓ : Loc nD τ sig) → Buf (Elt Ideal) ℓ)

/-- The argument array on core c, as the specification reads it. -/
abbrev xArr (c : Dev nD) : Cert.Spec.Arr := (m ((c.tc : Thread nD τ).loc main_arg0) : Vec Ideal S8192x128 .f32)

/-- Block s's rows' terms, summed (zero past the last block). -/
def rowBlock (c : Dev nD) (s : ℕ) : EReal :=
  if h : s < 64 then ∑ r : Fin 128, Cert.Spec.rowTerm (xArr m c) (Cert.BlockSum.pos (B := 64) (R := 128) (N := 8192) rfl ⟨s, h⟩ r) else 0

/-- Block s's rows' pair terms against all rows, summed (zero past the last block). -/
def pairBlock (c : Dev nD) (s : ℕ) : EReal :=
  if h : s < 64 then ∑ r : Fin 128, ∑ j : Fin 8192,
    Cert.Spec.pairTerm (xArr m c) (Cert.BlockSum.pos (B := 64) (R := 128) (N := 8192) rfl ⟨s, h⟩ r) j else 0

theorem lt64 (t : Fin cfg0.N) : t.val < 64 := lt_of_lt_of_eq t.isLt (show cfg0.N = 64 from N_0)

/-- The sum of the rows' terms of the first window's block at point t is block t's. -/
theorem rowStep (c : Dev nD) (t : Fin cfg0.N) :
    ∑ r : Fin 128, Cert.Spec.rowTermB (iblk m c 0 t : Vec Ideal S128x128 .f32) r = rowBlock m c t.val := by
  unfold rowBlock; rw [dif_pos (lt64 t)]
  refine Finset.sum_congr rfl fun r _ => ?_
  simp only [Cert.Spec.rowTermB, Cert.Spec.rowTerm, Cert.Spec.normSqEps, iblk0_apply]

/-- The sum of the pair terms of the first window's block at point t against the second window's block is block t's. -/
theorem pairStep (c : Dev nD) (t : Fin cfg0.N) :
    ∑ r : Fin 128, ∑ j : Fin 8192, Cert.Spec.pairTermB (iblk m c 0 t : Vec Ideal S128x128 .f32)
        (iblk m c 1 t : Vec Ideal S8192x128 .f32) (128 * t.val) r j = pairBlock m c t.val := by
  unfold pairBlock; rw [dif_pos (lt64 t)]
  refine Finset.sum_congr rfl fun r _ => Finset.sum_congr rfl fun j _ => ?_
  rw [iblk1_eq]
  simp only [Cert.Spec.pairTermB, Cert.Spec.pairTerm, Cert.Spec.distSq, Cert.Spec.normSq, Cert.Spec.inner, iblk0_apply]
  rfl

/-- The first accumulator's step: the payload over the block at point t and old contents s. -/
theorem acc0_step (c : Dev nD) (t : Fin cfg0.N) (s : Vec Ideal S1x1 .f32) :
    k0_pay4 (F := Ideal) (iblk m c 0 t : Vec Ideal S128x128 .f32) s = fun _ => s (ix2 (0 : Fin 1) (0 : Fin 1)) + rowBlock m c t.val := by
  rw [pay4_eq, rowStep]

/-- The second accumulator's step. -/
theorem acc1_step (c : Dev nD) (t : Fin cfg0.N) (s : Vec Ideal S1x1 .f32) :
    k0_pay8 (F := Ideal) (BitVec.ofNat 32 ((grid0.coords t) 0).val) (iblk m c 0 t : Vec Ideal S128x128 .f32)
        (k0_pay5 (iblk m c 0 t : Vec Ideal S128x128 .f32)) (k0_pay6 (iblk m c 1 t : Vec Ideal S8192x128 .f32))
        (k0_pay7 (iblk m c 1 t : Vec Ideal S8192x128 .f32)) (constant S128x8192 .f32 0x00000000#32) s
      = fun _ => s (ix2 (0 : Fin 1) (0 : Fin 1)) + pairBlock m c t.val := by
  rw [coords_val]
  have h := pay8_eq ⟨t.val, lt64 t⟩ (iblk m c 0 t : Vec Ideal S128x128 .f32) (iblk m c 1 t : Vec Ideal S8192x128 .f32) s
  rw [pairStep] at h
  exact h

/-- After point n the accumulators hold the sums of the blocks up to n. -/
theorem accs_eq (c : Dev nD) : ∀ (n : ℕ) (hn : n < cfg0.N),
    (outsAt m c n hn).2.1 = (fun _ => ∑ s ∈ Finset.range (n + 1), rowBlock m c s)
    ∧ (outsAt m c n hn).2.2 = (fun _ => ∑ s ∈ Finset.range (n + 1), pairBlock m c s) := by
  intro n
  induction n with
  | zero =>
    intro hn
    have h := outsAt_first m c ⟨0, hn⟩ rfl
    rw [show outsAt m c (⟨0, hn⟩ : Fin cfg0.N).val (⟨0, hn⟩ : Fin cfg0.N).isLt = outsAt m c 0 hn from rfl] at h
    rw [h]
    refine ⟨?_, ?_⟩
    · dsimp only
      rw [firstAcc0_eq, acc0_step, pay2_eq]
      funext _; rw [Finset.sum_range_one, zero_add]
    · dsimp only
      rw [firstAcc1_eq, acc1_step, pay3_eq]
      funext _; rw [Finset.sum_range_one, zero_add]
  | succ n ih =>
    intro hn
    obtain ⟨ih0, ih1⟩ := ih (Nat.lt_of_succ_lt hn)
    have hp : prevAt m c ⟨n + 1, hn⟩ = outsAt m c n (Nat.lt_of_succ_lt hn) := rfl
    by_cases h1 : n + 1 = 63
    · have h := outsAt_last m c ⟨n + 1, hn⟩ (Nat.succ_ne_zero n) h1
      rw [show outsAt m c (⟨n + 1, hn⟩ : Fin cfg0.N).val (⟨n + 1, hn⟩ : Fin cfg0.N).isLt = outsAt m c (n + 1) hn from rfl] at h
      rw [h, hp]
      refine ⟨?_, ?_⟩
      · dsimp only
        rw [lastAcc0_eq, acc0_step, ih0]
        funext _; rw [Finset.sum_range_succ _ (n + 1)]
      · dsimp only
        rw [lastAcc1_eq, acc1_step, ih1]
        funext _; rw [Finset.sum_range_succ _ (n + 1)]
    · have h := outsAt_mid m c ⟨n + 1, hn⟩ (Nat.succ_ne_zero n) h1
      rw [show outsAt m c (⟨n + 1, hn⟩ : Fin cfg0.N).val (⟨n + 1, hn⟩ : Fin cfg0.N).isLt = outsAt m c (n + 1) hn from rfl] at h
      rw [h, hp]
      refine ⟨?_, ?_⟩
      · dsimp only
        rw [midAcc0_eq, acc0_step, ih0]
        funext _; rw [Finset.sum_range_succ _ (n + 1)]
      · dsimp only
        rw [midAcc1_eq, acc1_step, ih1]
        funext _; rw [Finset.sum_range_succ _ (n + 1)]

/-- The blocks' sums over all 64 blocks are the specification's two sums. -/
theorem rows_total (c : Dev nD) : ∑ s ∈ Finset.range 64, rowBlock m c s = ∑ i : Fin 8192, Cert.Spec.rowTerm (xArr m c) i := by
  rw [Cert.BlockSum.sum_range_eq_sum_fin 64 (rowBlock m c), ← Cert.BlockSum.sum_blocks (B := 64) (R := 128) (N := 8192) rfl]
  refine Finset.sum_congr rfl fun t _ => ?_
  unfold rowBlock; rw [dif_pos t.isLt]

theorem pairs_total (c : Dev nD) :
    ∑ s ∈ Finset.range 64, pairBlock m c s = ∑ i : Fin 8192, ∑ j : Fin 8192, Cert.Spec.pairTerm (xArr m c) i j := by
  rw [Cert.BlockSum.sum_range_eq_sum_fin 64 (pairBlock m c),
    ← Cert.BlockSum.sum_blocks (B := 64) (R := 128) (N := 8192) rfl (fun i => ∑ j : Fin 8192, Cert.Spec.pairTerm (xArr m c) i j)]
  refine Finset.sum_congr rfl fun t _ => ?_
  unfold pairBlock; rw [dif_pos t.isLt]

/-- What the last point leaves in the output's block: the specification's loss. -/
theorem out_eq (c : Dev nD) (h63 : 63 < cfg0.N) :
    (outsAt m c 63 h63).1 = fun _ => Cert.Spec.G (xArr m c) := by
  have h := outsAt_last m c ⟨63, h63⟩ (show ¬((63 : ℕ) = 0) by decide) rfl
  rw [show outsAt m c (⟨63, h63⟩ : Fin cfg0.N).val (⟨63, h63⟩ : Fin cfg0.N).isLt = outsAt m c 63 h63 from rfl] at h
  have hp : prevAt m c ⟨63, h63⟩ = outsAt m c 62 (Nat.lt_of_succ_lt h63) := rfl
  obtain ⟨ih0, ih1⟩ := accs_eq m c 62 (Nat.lt_of_succ_lt h63)
  rw [h, hp]
  dsimp only
  rw [lastOut_eq, pay1_eq, acc0_step, acc1_step, ih0, ih1]
  funext _
  show Ideal.div ((∑ s ∈ Finset.range (62 + 1), rowBlock m c s) + rowBlock m c 63) Cert.Spec.nRows
      + Ideal.div ((∑ s ∈ Finset.range (62 + 1), pairBlock m c s) + pairBlock m c 63) Cert.Spec.nPairs = _
  rw [← Finset.sum_range_succ (rowBlock m c) 63, ← Finset.sum_range_succ (pairBlock m c) 63, rows_total, pairs_total]
  rfl

end Cert.KernelIdeal.Hand

end
-- ==== Proof.KI.ValueRun.lean ====
/-
  The kernel program's result over the extended reals: the scalar result is the specification's loss of the argument
  array, and the argument array ends unchanged.
-/
import proofs.«137138_j82729660056292_1_alg».proof.Proof.KI.Run
import proofs.«137138_j82729660056292_1_alg».proof.Proof.KI.Exit
import proofs.«137138_j82729660056292_1_alg».proof.Proof.KI.Value

set_option maxRecDepth 16384

noncomputable section

namespace Cert.KernelIdeal.Hand

open Idealize.ShloMosaic Idealize.ShloMosaic.TcCoe Idealize.SL.Sem
open Idealize.ShloMosaic.ValueIdx
open Cert.KernelIdeal.Gen

variable (m : (ℓ : Loc nD τ sig) → Buf (Elt Ideal) ℓ) (ρ : Dev nD → PrngReg)

/-- The scalar result after the host operation that follows the region. -/
theorem result_eq (c : Dev nD) :
    (StableHlo.after (hostOps1 (F := Ideal)) (exitVal m (dats m) c) (Proc.devRef .tc main_v0) : Vec Ideal S_ .f32)
      = fun _ => Cert.Spec.G (xArr m c) := by
  unfold exitVal
  rw [exit_result, arrAt_out, out_eq]

/-- THE VALUE RUN: every weakly fair execution terminates with the scalar result at the loss of the argument array
    and the argument array unchanged. -/
theorem value_run : θ_run (defs (F := Ideal)) (onTc (τ := τ) (main (F := Ideal))) ⟨m, fun _ => 0, ρ⟩ (fun r => ∀ c : Dev nD,
      (r.2.mem ((c.tc : Thread nD τ).loc main_v0) : Vec Ideal S_ .f32) = (fun _ => Cert.Spec.G (xArr m c))
      ∧ r.2.mem ((c.tc : Thread nD τ).loc main_arg0) = m ((c.tc : Thread nD τ).loc main_arg0)) :=
  (θ_run (defs (F := Ideal)) _ _).mono (fun _ h c => ⟨(h c).2.trans (result_eq m c), (h c).1⟩) (run_main m ρ)

end Cert.KernelIdeal.Hand

end
-- ==== Proof.RefRun.lean ====
/-
  The reference program's run and its operations read at an index, as the generated modules state them;
  the hand modules that identify the reference's result with the specification import this one.
-/
import proofs.«137138_j82729660056292_1_alg».proof.Proof.Gen.ReferenceIdeal.Run
import proofs.«137138_j82729660056292_1_alg».proof.Proof.Gen.ReferenceIdeal.Read
-- ==== Proof.RefRows.lean ====
/-
  The reference's first summand: the mean over the rows of the clipped transform of each row's distance to the
  origin, read index by index off the reference's operations.
-/
import proofs.«137138_j82729660056292_1_alg».proof.Proof.RefRun
import proofs.«137138_j82729660056292_1_alg».proof.Proof.Spec
import proofs.«137138_j82729660056292_1_alg».proof.Proof.LibKeepdims
import Idealize.ShloMosaic.Lib.ValueIdxRank1

noncomputable section

open scoped BigOperators

namespace Cert.ReferenceIdeal.RefValue

open Cert.ReferenceIdeal Idealize.ShloMosaic Idealize.ShloMosaic.ValueIdx

/-- The index the row sum reads at row i, entry k, is the coordinate pair (i, k). -/
theorem idx_v3_ix (i : Fin 8192) (k : Fin 128) :
    Cert.ReferenceIdeal.Read.idx_main_v3 (ix1 i) k = ix2 i k := by
  funext a
  match a with
  | ⟨0, _⟩ => rfl
  | ⟨1, _⟩ => rfl

/-- Row i's squared norm after the shift by ε: the reference's sum over the row's 128 entries, its initial
    value being zero. -/
theorem v3_row (x0 : (⟨S8192x128, .f32⟩ : BufTy).Contents (Elt Ideal)) (i : Fin 8192) :
    Cert.ReferenceIdeal.Read.val_main_v3 (F := Ideal) x0 (ix1 i) = Cert.Spec.normSqEps x0 i := by
  rw [Read.val_main_v3_apply, Read.val_main_cst_0_apply]
  simp only [Ideal.ofBits_def, Ideal.ofBits_zero_f32, zero_add, idx_v3_ix]
  unfold Cert.Spec.normSqEps
  refine Finset.sum_congr rfl fun k _ => ?_
  rw [Read.val_main_v2_apply, Read.val_main_v1_apply, Read.val_main_v0_apply, Read.val_main_cst_apply]
  simp only [Ideal.mulf_def, Ideal.addf_def, Ideal.ofBits_def]
  rfl

/-- Row i's distance to the origin. -/
theorem v4_row (x0 : (⟨S8192x128, .f32⟩ : BufTy).Contents (Elt Ideal)) (i : Fin 8192) :
    Cert.ReferenceIdeal.Read.val_main_v4 (F := Ideal) x0 (ix1 i) = Ideal.sqrt (Cert.Spec.normSqEps x0 i) := by
  rw [Read.val_main_v4_apply, v3_row, Ideal.hostUnary_sqrt_def]

/-- Row i's term: 1/d³ − 1/d² of its distance d, clipped below and then above. The reference forms the cube
    as (d · d) · d, the specification as d · (d · d); the product of extended reals is commutative. -/
theorem v13_row (x0 : (⟨S8192x128, .f32⟩ : BufTy).Contents (Elt Ideal)) (i : Fin 8192) :
    Cert.ReferenceIdeal.Read.val_main_v13 (F := Ideal) x0 (ix1 i) = Cert.Spec.rowTerm x0 i := by
  rw [Read.val_main_v13_apply, Read.val_main_call0_v4_apply, Read.val_main_call0_v3_apply,
    Read.val_main_cst_4_apply, Read.val_main_call0_v2_apply, Read.val_main_call0_v1_apply,
    Read.val_main_call0_v0_apply, Read.val_main_cst_3_apply, Read.val_main_v12_apply,
    Read.val_main_v8_apply, Read.val_main_v7_apply, Read.val_main_cst_1_apply, Read.val_main_v6_apply,
    Read.val_main_v5_apply, Read.val_main_v11_apply, Read.val_main_v10_apply, Read.val_main_cst_2_apply,
    Read.val_main_v9_apply, v4_row]
  simp only [Ideal.mulf_def, Ideal.subf_def, Ideal.hostDivf_def, Ideal.maximumf_def, Ideal.minimumf_def,
    Ideal.ofBits_def]
  unfold Cert.Spec.rowTerm Cert.Spec.pe Cert.Spec.hi Cert.Spec.lo Cert.Spec.one
  rw [mul_comm (Ideal.sqrt (Cert.Spec.normSqEps x0 i) * Ideal.sqrt (Cert.Spec.normSqEps x0 i))
    (Ideal.sqrt (Cert.Spec.normSqEps x0 i))]

/-- The reference's value %15 (the mean of the rows' terms) is the specification's first summand. -/
theorem rows_eq (x0 : (⟨S8192x128, .f32⟩ : BufTy).Contents (Elt Ideal)) :
    Cert.ReferenceIdeal.Read.val_main_v15 (F := Ideal) x0
      = fun _ => Ideal.div (∑ i : Fin 8192, Cert.Spec.rowTerm x0 i) Cert.Spec.nRows := by
  funext j
  rw [Read.val_main_v15_apply, Read.val_main_v14_apply, Read.val_main_cst_5_apply, Read.val_main_cst_6_apply]
  simp only [Ideal.hostDivf_def, Ideal.ofBits_def, Ideal.ofBits_zero_f32, zero_add]
  unfold Cert.Spec.nRows
  refine congrArg (fun s => Ideal.div s (Ideal.ofBits .f32 0x46000000#32)) ?_
  rw [← Equiv.sum_comp (idxEquiv1 (n := 8192)).symm]
  exact Finset.sum_congr rfl fun i _ => v13_row x0 i

end Cert.ReferenceIdeal.RefValue

end
-- ==== Proof.RefPairs.lean ====
/-
  The reference's second summand: the sum over the pairs of rows above the diagonal of the clipped transform of
  the rows' distance, divided by the number of such pairs, read index by index off the reference's operations.
-/
import proofs.«137138_j82729660056292_1_alg».proof.Proof.RefRun
import proofs.«137138_j82729660056292_1_alg».proof.Proof.Spec
import proofs.«137138_j82729660056292_1_alg».proof.Proof.LibKeepdims
import proofs.«137138_j82729660056292_1_alg».proof.Proof.LibDotPlain
import Idealize.ShloMosaic.Lib.StableHlo.Predicate

noncomputable section

open scoped BigOperators

namespace Cert.ReferenceIdeal.RefValue

open Cert.ReferenceIdeal Idealize.ShloMosaic Idealize.ShloMosaic.ValueIdx

open Cert.ReferenceIdeal.Read

section Entries

variable (x0 : (⟨S8192x128, .f32⟩ : BufTy).Contents (Elt Ideal))

/-! ## The squared norms, the inner product and the squared distance at one pair of rows -/

/-- Row r's sum of squares over its 128 entries is the specification's squared norm of row r. -/
theorem pairs_normSq (r : Fin 8192) :
    val_main_v17 (F := Ideal) x0 (ix1 r) = Cert.Spec.normSq x0 r := by
  rw [val_main_v17_apply, val_main_cst_7_apply, Ideal.ofBits_def, Ideal.ofBits_zero_f32, zero_add]
  unfold Cert.Spec.normSq
  refine Finset.sum_congr rfl fun k _ => ?_
  have hk : idx_main_v17 (ix1 r) k = ix2 r k := by
    funext a; match a with | ⟨0, _⟩ => rfl | ⟨1, _⟩ => rfl
  rw [val_main_v16_apply, hk]
  rfl

/-- The column of squared norms spread along the rows: at (i, j) it is row i's squared norm. -/
theorem pairs_normRow (i j : Fin 8192) :
    val_main_v20 (F := Ideal) x0 (ix2 i j) = Cert.Spec.normSq x0 i := by
  have h : idx_main_v18 (idx_main_v20 (ix2 i j)) = ix1 i := by
    funext a; match a with | ⟨0, _⟩ => rfl
  rw [val_main_v20_apply, val_main_v18_apply, h, pairs_normSq]

/-- The row of squared norms spread down the columns: at (i, j) it is row j's squared norm. -/
theorem pairs_normCol (i j : Fin 8192) :
    val_main_v21 (F := Ideal) x0 (ix2 i j) = Cert.Spec.normSq x0 j := by
  have h : idx_main_v19 (idx_main_v21 (ix2 i j)) = ix1 j := by
    funext a; match a with | ⟨0, _⟩ => rfl
  rw [val_main_v21_apply, val_main_v19_apply, h, pairs_normSq]

/-- The product of the array with its transpose: at (i, j) it is the inner product of rows i and j. -/
theorem pairs_inner (i j : Fin 8192) :
    val_main_v24 (F := Ideal) x0 (ix2 i j) = Cert.Spec.inner x0 i j := by
  rw [val_main_v24_apply]
  unfold Cert.Spec.inner
  refine Finset.sum_congr rfl fun k _ => ?_
  have hl : lidx_main_v24 (ix2 i j) k = ix2 i k := by
    funext a; match a with | ⟨0, _⟩ => rfl | ⟨1, _⟩ => rfl
  have hr : idx_main_v23 (ridx_main_v24 (ix2 i j) k) = ix2 j k := by
    funext a; match a with | ⟨0, _⟩ => rfl | ⟨1, _⟩ => rfl
  rw [val_main_v23_apply, hl, hr]

/-- The squared distance through the norms and the inner product. -/
theorem pairs_distSq (i j : Fin 8192) :
    val_main_v27 (F := Ideal) x0 (ix2 i j) = Cert.Spec.distSq x0 i j := by
  rw [val_main_v27_apply, val_main_v22_apply, val_main_v26_apply, val_main_v25_apply, val_main_cst_8_apply,
    pairs_normRow, pairs_normCol, pairs_inner]
  rfl

/-! ## The mask: the strict upper triangle -/

/-- A row or column number of the 8192 × 8192 array, as a 32-bit word, has that number as its value. -/
theorem pairs_word (i : Fin 8192) : (BitVec.ofNat 32 i.val).toNat = i.val := by
  have hi := i.isLt
  rw [BitVec.toNat_ofNat]
  exact Nat.mod_eq_of_lt (by omega)

/-- The mask keeps the second branch of a select on "row number + 0 ≥ column number" whose first branch is
    false and whose second is true: its bit at (i, j) is set exactly when i < j. -/
theorem pairs_mask (i j : Fin 8192) :
    val_main_v29 (F := Ideal) (ix2 i j) = if i.val < j.val then 1#1 else 0#1 := by
  have hi := i.isLt
  have hj := j.isLt
  have ti := pairs_word i
  have tj := pairs_word j
  have hc : IntOp.cmpi .sge (IntOp.addi (BitVec.ofNat 32 i.val) 0#32) (BitVec.ofNat 32 j.val) = 1#1
      ↔ j.val ≤ i.val := by
    rw [show IntOp.addi (BitVec.ofNat 32 i.val) 0#32 = BitVec.ofNat 32 i.val from BitVec.add_zero _,
      StableHlo.Predicate.sge_iff_toNat (by rw [ti]; omega) (by rw [tj]; omega), ti, tj]
  rw [val_main_v29_apply, val_main_call1_v4_apply, val_main_call1_v2_apply, val_main_call1_v0_apply,
    val_main_call1_v1_apply, val_main_call1_c_apply, val_main_call1_v3_apply, val_main_call1_v5_apply,
    val_main_call1_c_0_apply, val_main_v28_apply, val_main_c_apply]
  show Scalar.select (IntOp.cmpi .sge (IntOp.addi (BitVec.ofNat 32 i.val) 0#32) (BitVec.ofNat 32 j.val)) 0#1 1#1 = _
  by_cases h : i.val < j.val
  · rw [if_pos h, eq_zero_of_ne_one (fun e => absurd (hc.mp e) (by omega)), select_zero]
  · rw [if_neg h, hc.mpr (by omega), select_one]

/-! ## One entry of the pair array -/

/-- Above the diagonal the first masked array keeps the squared distance cut at zero. -/
theorem pairs_cut (i j : Fin 8192) (h : i.val < j.val) :
    val_main_v32 (F := Ideal) x0 (ix2 i j) = max (Cert.Spec.distSq x0 i j) 0 := by
  rw [val_main_v32_apply, pairs_mask, if_pos h, select_one, val_main_v31_apply, pairs_distSq, val_main_v30_apply,
    val_main_cst_9_apply, Ideal.ofBits_def, Ideal.ofBits_zero_f32]
  rfl

/-- Above the diagonal the distance is the square root of the squared distance cut at zero. -/
theorem pairs_dist (i j : Fin 8192) (h : i.val < j.val) :
    val_main_v33 (F := Ideal) x0 (ix2 i j) = Ideal.sqrt (max (Cert.Spec.distSq x0 i j) 0) := by
  rw [val_main_v33_apply, pairs_cut x0 i j h]
  rfl

/-- Above the diagonal the clipped transform of the distance: 1/d³ − 1/d², clipped below and then above. The
    reference forms the cube as (d · d) · d, the specification as d · (d · d); the product of extended reals is
    commutative. -/
theorem pairs_clip (i j : Fin 8192) (h : i.val < j.val) :
    val_main_v42 (F := Ideal) x0 (ix2 i j)
      = Cert.Spec.pe (Ideal.sqrt (max (Cert.Spec.distSq x0 i j) 0)) := by
  rw [val_main_v42_apply, val_main_call3_v4_apply, val_main_call3_v3_apply, val_main_cst_14_apply,
    val_main_call3_v2_apply, val_main_call3_v1_apply, val_main_call3_v0_apply, val_main_cst_13_apply,
    val_main_v41_apply, val_main_v37_apply, val_main_v36_apply, val_main_cst_11_apply, val_main_v35_apply,
    val_main_v34_apply, val_main_v40_apply, val_main_v39_apply, val_main_cst_12_apply, val_main_v38_apply,
    pairs_dist x0 i j h]
  generalize Ideal.sqrt (max (Cert.Spec.distSq x0 i j) 0) = d
  show min Cert.Spec.hi (max Cert.Spec.lo (Ideal.div Cert.Spec.one (d * d * d) - Ideal.div Cert.Spec.one (d * d)))
    = min Cert.Spec.hi (max Cert.Spec.lo (Ideal.div Cert.Spec.one (d * (d * d)) - Ideal.div Cert.Spec.one (d * d)))
  rw [mul_comm (d * d) d]

/-- One entry: the pair (i, j)'s term of the specification's second sum. On and below the diagonal the mask's
    bit is clear and the outer select gives its constant branch, zero (the inner select's constant, one, sits
    under the square root of an entry the outer select discards). -/
theorem pairs_entry (i j : Fin 8192) :
    val_main_v43 (F := Ideal) x0 (ix2 i j) = Cert.Spec.pairTerm x0 i j := by
  rw [val_main_v43_apply, pairs_mask]
  unfold Cert.Spec.pairTerm
  by_cases h : i.val < j.val
  · rw [if_pos h, if_pos h, select_one, pairs_clip x0 i j h]
  · rw [if_neg h, if_neg h, select_zero, val_main_call4_v1_apply, val_main_call4_v0_apply, val_main_cst_15_apply,
      Ideal.ofBits_def, Ideal.ofBits_zero_f32]

end Entries

/-- The reference's value %45 (the pairs' sum over the number of pairs) is the specification's second summand. -/
theorem pairs_eq (x0 : (⟨S8192x128, .f32⟩ : BufTy).Contents (Elt Ideal)) :
    Cert.ReferenceIdeal.Read.val_main_v45 (F := Ideal) x0
      = fun _ => Ideal.div (∑ i : Fin 8192, ∑ j : Fin 8192, Cert.Spec.pairTerm x0 i j) Cert.Spec.nPairs := by
  funext u
  -- the sum over both axes starts from zero and runs over every index, that is over every pair of coordinates
  have hs : val_main_v44 (F := Ideal) x0 u = ∑ i : Fin 8192, ∑ j : Fin 8192, Cert.Spec.pairTerm x0 i j := by
    rw [val_main_v44_apply, val_main_cst_16_apply, Ideal.ofBits_def, Ideal.ofBits_zero_f32, zero_add,
      sum_idx2 (val_main_v43 (F := Ideal) x0)]
    exact Finset.sum_congr rfl fun i _ => Finset.sum_congr rfl fun j _ => pairs_entry x0 i j
  rw [val_main_v45_apply, hs, val_main_cst_17_apply]
  rfl

end Cert.ReferenceIdeal.RefValue

end
-- ==== Proof.RefValue.lean ====
/-
  The reference's result over the extended reals is the specification's loss of the argument array: its last
  operation adds the mean of the rows' terms and the pairs' sum over the number of pairs.
-/
import proofs.«137138_j82729660056292_1_alg».proof.Proof.RefRows
import proofs.«137138_j82729660056292_1_alg».proof.Proof.RefPairs

noncomputable section

open scoped BigOperators

namespace Cert.ReferenceIdeal.RefValue

open Cert.ReferenceIdeal Idealize.ShloMosaic Idealize.ShloMosaic.TcCoe Idealize.SL.Sem

/-- The reference's composed result term is the loss of the argument array, at its one index. -/
theorem result_eq (m : (ℓ : Loc nD τ sig) → Buf (Elt Ideal) ℓ) (c : Dev nD) :
    (Cert.ReferenceIdeal.Value.res_main_v46 (F := Ideal) m c : Vec Ideal S_ .f32)
      = fun _ => Cert.Spec.G (m ((c.tc : Thread nD τ).loc main_arg0) : Vec Ideal S8192x128 .f32) := by
  rw [Cert.ReferenceIdeal.Read.val_main_v46_eq]
  funext i
  rw [Cert.ReferenceIdeal.Read.val_main_v46_apply, rows_eq, pairs_eq]
  rfl

end Cert.ReferenceIdeal.RefValue

end
-- ==== Proof.lean ====
/-
  The certificate: a loss over 8192 rows, computed by one kernel region that walks the rows in 64 blocks of 128 and
  keeps two running sums, against the reference that forms the whole 8192 × 8192 table of pair terms.

  Over the extended reals both programs compute

      G x = (Σ_i pe (‖x_i + ε‖)) / 8192 + (Σ_{i<j} pe (d (x_i, x_j))) / (8192 · 8191 / 2),

  with pe (d) = 1/d³ − 1/d² clipped to [−1.5, 1000] and d through the squared norms and the inner product. The kernel's
  two accumulators after the last grid point hold the two sums (a sum over blocks of consecutive rows is the sum over
  the rows: addition on the extended reals is commutative and associative, so no finiteness is needed); the reference's
  operations read index by index give the same two sums, with d·d·d grouped the other way (multiplication commutes).
  The three frames: each kernel program runs to the end with its argument array unchanged — the two input windows of
  the region read the same array, each lent one half of it — and the reference's frame is its run with the result
  dropped. The kernel's idealization rewrote no operation.
-/
import proofs.«137138_j82729660056292_1_alg».proof.Defs
import proofs.«137138_j82729660056292_1_alg».proof.Proof.Gen.Kernel
import proofs.«137138_j82729660056292_1_alg».proof.Proof.Gen.KernelIdeal
import proofs.«137138_j82729660056292_1_alg».proof.Proof.Gen.ReferenceIdeal
import proofs.«137138_j82729660056292_1_alg».proof.Proof.Gen.Pre_finite_inputs
import proofs.«137138_j82729660056292_1_alg».proof.Proof.K.Run
import proofs.«137138_j82729660056292_1_alg».proof.Proof.KI.ValueRun
import proofs.«137138_j82729660056292_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its argument unchanged. -/
theorem frame_k : Cert.frame_Kernel := fun m ρ _ => Cert.Kernel.Hand.frame (F := Bits) m ρ

/-- The idealized kernel program runs and leaves its argument unchanged. -/
theorem frame_ki : Cert.frame_KernelIdeal := fun m ρ _ => Cert.KernelIdeal.Hand.frame (F := Ideal) m ρ

/-- The reference runs and leaves its argument unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the argument array both programs end with the loss of that array. -/
theorem algebraic : Cert.algebraic_KernelIdeal_ReferenceIdeal := by
  intro m ρ m' ρ' _ hagree
  refine ⟨fun c => (fun _ => Cert.Spec.G (Cert.KernelIdeal.Hand.xArr m c)), Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq m' c).trans ?_
  rw [hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
